-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000x1x128 : Shape := ⟨4, ![2, 1000, 1, 128]⟩
abbrev S2x1000x3x128 : Shape := ⟨4, ![2, 1000, 3, 128]⟩
abbrev S2x1000x5x128 : Shape := ⟨4, ![2, 1000, 5, 128]⟩
abbrev S2x1000x7x128 : Shape := ⟨4, ![2, 1000, 7, 128]⟩
abbrev S_ : Shape := ⟨0, ![]⟩

class Facts : Prop where
  bcast_S_S2x1000x1x128 : S_.BroadcastsInDim S2x1000x1x128 (![] : Fin 0 → Fin S2x1000x1x128.rank)
  reducesTo_S2x1000x1x128_S_d0_1_2_3 : S2x1000x1x128.ReducesTo [0, 1, 2, 3] S_
  h_S_ : 0 < S_.numel
  bcast_S_S2x1000x3x128 : S_.BroadcastsInDim S2x1000x3x128 (![] : Fin 0 → Fin S2x1000x3x128.rank)
  reducesTo_S2x1000x3x128_S_d0_1_2_3 : S2x1000x3x128.ReducesTo [0, 1, 2, 3] S_
  bcast_S_S2x1000x5x128 : S_.BroadcastsInDim S2x1000x5x128 (![] : Fin 0 → Fin S2x1000x5x128.rank)
  reducesTo_S2x1000x5x128_S_d0_1_2_3 : S2x1000x5x128.ReducesTo [0, 1, 2, 3] S_
  bcast_S_S2x1000x7x128 : S_.BroadcastsInDim S2x1000x7x128 (![] : Fin 0 → Fin S2x1000x7x128.rank)
  reducesTo_S2x1000x7x128_S_d0_1_2_3 : S2x1000x7x128.ReducesTo [0, 1, 2, 3] S_

variable [Facts]

def fn_part1 {F : FTy → Type} [FloatOps F] (main_v13 : IVec S_ 1) (main_v16 : IVec S2x1000x7x128 1) : IVec S_ 1 :=
  let main_c_5 : IVec S_ 1 := constantI S_ 1 1#1
  let main_v17 : IVec S_ 1 := (fun x v => Host.reduce IntOp.andi x v reducesTo_S2x1000x7x128_S_d0_1_2_3 h_S_) main_v16 main_c_5
  let main_v18 : IVec S_ 1 := andi main_v13 main_v17
  main_v18

def fn {F : FTy → Type} [FloatOps F] (main_arg0 : FVec F S2x1000x1x128 .f32) (main_arg1 : FVec F S2x1000x3x128 .f32) (main_arg2 : FVec F S2x1000x5x128 .f32) (main_arg3 : FVec F S2x1000x7x128 .f32) : IVec S_ 1 :=
  let main_v0 : FVec F S2x1000x1x128 .f32 := Host.absf main_arg0
  let main_cst : FVec F S_ .f32 := constant S_ .f32 0x7F800000#32
  let main_v1 : FVec F S2x1000x1x128 .f32 := broadcastInDim S2x1000x1x128 ![] bcast_S_S2x1000x1x128 main_cst
  let main_v2 : IVec S2x1000x1x128 1 := cmpf .olt main_v0 main_v1
  let main_c : IVec S_ 1 := constantI S_ 1 1#1
  let main_v3 : IVec S_ 1 := (fun x v => Host.reduce IntOp.andi x v reducesTo_S2x1000x1x128_S_d0_1_2_3 h_S_) main_v2 main_c
  let main_v4 : FVec F S2x1000x3x128 .f32 := Host.absf main_arg1
  let main_cst_0 : FVec F S_ .f32 := constant S_ .f32 0x7F800000#32
  let main_v5 : FVec F S2x1000x3x128 .f32 := broadcastInDim S2x1000x3x128 ![] bcast_S_S2x1000x3x128 main_cst_0
  let main_v6 : IVec S2x1000x3x128 1 := cmpf .olt main_v4 main_v5
  let main_c_1 : IVec S_ 1 := constantI S_ 1 1#1
  let main_v7 : IVec S_ 1 := (fun x v => Host.reduce IntOp.andi x v reducesTo_S2x1000x3x128_S_d0_1_2_3 h_S_) main_v6 main_c_1
  let main_v8 : IVec S_ 1 := andi main_v3 main_v7
  let main_v9 : FVec F S2x1000x5x128 .f32 := Host.absf main_arg2
  let main_cst_2 : FVec F S_ .f32 := constant S_ .f32 0x7F800000#32
  let main_v10 : FVec F S2x1000x5x128 .f32 := broadcastInDim S2x1000x5x128 ![] bcast_S_S2x1000x5x128 main_cst_2
  let main_v11 : IVec S2x1000x5x128 1 := cmpf .olt main_v9 main_v10
  let main_c_3 : IVec S_ 1 := constantI S_ 1 1#1
  let main_v12 : IVec S_ 1 := (fun x v => Host.reduce IntOp.andi x v reducesTo_S2x1000x5x128_S_d0_1_2_3 h_S_) main_v11 main_c_3
  let main_v13 : IVec S_ 1 := andi main_v8 main_v12
  let main_v14 : FVec F S2x1000x7x128 .f32 := Host.absf main_arg3
  let main_cst_4 : FVec F S_ .f32 := constant S_ .f32 0x7F800000#32
  let main_v15 : FVec F S2x1000x7x128 .f32 := broadcastInDim S2x1000x7x128 ![] bcast_S_S2x1000x7x128 main_cst_4
  let main_v16 : IVec S2x1000x7x128 1 := cmpf .olt main_v14 main_v15
  fn_part1 (F := F) main_v13 main_v16
-- ==== Kernel.lean ====
abbrev S2x1000x1x128 : Shape := ⟨4, ![2, 1000, 1, 128]⟩
abbrev S2x1000x3x128 : Shape := ⟨4, ![2, 1000, 3, 128]⟩
abbrev S2x1000x5x128 : Shape := ⟨4, ![2, 1000, 5, 128]⟩
abbrev S2x1000x7x128 : Shape := ⟨4, ![2, 1000, 7, 128]⟩
abbrev S2x1000x16384 : Shape := ⟨3, ![2, 1000, 16384]⟩
abbrev S1x40x1x128 : Shape := ⟨4, ![1, 40, 1, 128]⟩
abbrev S1x40x16384 : Shape := ⟨3, ![1, 40, 16384]⟩
abbrev S40x128 : Shape := ⟨2, ![40, 128]⟩
abbrev S40x128x1 : Shape := ⟨3, ![40, 128, 1]⟩
abbrev S40x1x128 : Shape := ⟨3, ![40, 1, 128]⟩
abbrev S40x128x128 : Shape := ⟨3, ![40, 128, 128]⟩
abbrev S40x16384 : Shape := ⟨2, ![40, 16384]⟩
abbrev S1x40x3x128 : Shape := ⟨4, ![1, 40, 3, 128]⟩
abbrev S1x40x5x128 : Shape := ⟨4, ![1, 40, 5, 128]⟩
abbrev S1x40x7x128 : Shape := ⟨4, ![1, 40, 7, 128]⟩
abbrev S2x1000x65536 : Shape := ⟨3, ![2, 1000, 65536]⟩

abbrev nBuf : Space → Nat
  | .hbm => 9
  | .vmem => 16
  | .smem => 0
  | _ => 0

abbrev bufTy : (tb : Table) → Fin (tcTables nBuf tb) → BufTy
  | .hbm, ⟨0, _⟩ => ⟨S2x1000x1x128, .f32⟩
  | .hbm, ⟨1, _⟩ => ⟨S2x1000x3x128, .f32⟩
  | .hbm, ⟨2, _⟩ => ⟨S2x1000x5x128, .f32⟩
  | .hbm, ⟨3, _⟩ => ⟨S2x1000x7x128, .f32⟩
  | .hbm, ⟨4, _⟩ => ⟨S2x1000x16384, .f32⟩
  | .hbm, ⟨5, _⟩ => ⟨S2x1000x16384, .f32⟩
  | .hbm, ⟨6, _⟩ => ⟨S2x1000x16384, .f32⟩
  | .hbm, ⟨7, _⟩ => ⟨S2x1000x16384, .f32⟩
  | .hbm, ⟨8, _⟩ => ⟨S2x1000x65536, .f32⟩
  | .local _ .vmem, ⟨0, _⟩ => ⟨S1x40x1x128, .f32⟩
  | .local _ .vmem, ⟨1, _⟩ => ⟨S1x40x1x128, .f32⟩
  | .local _ .vmem, ⟨2, _⟩ => ⟨S1x40x16384, .f32⟩
  | .local _ .vmem, ⟨3, _⟩ => ⟨S1x40x16384, .f32⟩
  | .local _ .vmem, ⟨4, _⟩ => ⟨S1x40x3x128, .f32⟩
  | .local _ .vmem, ⟨5, _⟩ => ⟨S1x40x3x128, .f32⟩
  | .local _ .vmem, ⟨6, _⟩ => ⟨S1x40x16384, .f32⟩
  | .local _ .vmem, ⟨7, _⟩ => ⟨S1x40x16384, .f32⟩
  | .local _ .vmem, ⟨8, _⟩ => ⟨S1x40x5x128, .f32⟩
  | .local _ .vmem, ⟨9, _⟩ => ⟨S1x40x5x128, .f32⟩
  | .local _ .vmem, ⟨10, _⟩ => ⟨S1x40x16384, .f32⟩
  | .local _ .vmem, ⟨11, _⟩ => ⟨S1x40x16384, .f32⟩
  | .local _ .vmem, ⟨12, _⟩ => ⟨S1x40x7x128, .f32⟩
  | .local _ .vmem, ⟨13, _⟩ => ⟨S1x40x7x128, .f32⟩
  | .local _ .vmem, ⟨14, _⟩ => ⟨S1x40x16384, .f32⟩
  | .local _ .vmem, ⟨15, _⟩ => ⟨S1x40x16384, .f32⟩
  | _, _ => ⟨S2x1000x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15

abbrev nD : Nat := 1
abbrev τ : Topo := Topo.v7x

variable {F : FTy → Type} [FloatOps F]

abbrev grid0 : Pipeline.Grid := ⟨2, ![2, 25], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x40x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x40x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 25], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x40x3x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x40x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![2, 25], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x40x5x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x40x16384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![2, 25], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x40x7x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x40x16384 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

class Facts₀ : Prop where
  inb_S1x40x1x128_S1x40x1x128_0_0_0_0 : ∀ a, (![0, 0, 0, 0] : Fin 4 → Nat) a + S1x40x1x128.size a ≤ S1x40x1x128.size a
  h_S1x40x1x128 : 0 < S1x40x1x128.numel
  shapeCasts_S1x40x1x128_S40x128 : S1x40x1x128.ShapeCasts S40x128
  shapeCasts_S40x128_S40x128x1 : S40x128.ShapeCasts S40x128x1
  shapeCasts_S40x128_S40x1x128 : S40x128.ShapeCasts S40x1x128
  broadcasts_S40x128x1_S40x128x128 : S40x128x1.Broadcasts S40x128x128
  broadcasts_S40x1x128_S40x128x128 : S40x1x128.Broadcasts S40x128x128
  shapeCasts_S40x128x128_S40x16384 : S40x128x128.ShapeCasts S40x16384
  inb_S1x40x16384_S1x40x16384_0_0_0 : ∀ a, (![0, 0, 0] : Fin 3 → Nat) a + S1x40x16384.size a ≤ S1x40x16384.size a
  h_S1x40x16384 : 0 < S1x40x16384.numel
  shapeCasts_S1x40x16384_S40x16384 : S1x40x16384.ShapeCasts S40x16384
  shapeCasts_S40x16384_S1x40x16384 : S40x16384.ShapeCasts S1x40x16384
  inb_S1x40x3x128_S1x40x1x128_0_0_0_0 : ∀ a, (![0, 0, 0, 0] : Fin 4 → Nat) a + S1x40x1x128.size a ≤ S1x40x3x128.size a
  inb_S1x40x3x128_S1x40x1x128_0_0_1_0 : ∀ a, (![0, 0, 1, 0] : Fin 4 → Nat) a + S1x40x1x128.size a ≤ S1x40x3x128.size a
  inb_S1x40x3x128_S1x40x1x128_0_0_2_0 : ∀ a, (![0, 0, 2, 0] : Fin 4 → Nat) a + S1x40x1x128.size a ≤ S1x40x3x128.size a
  inb_S1x40x5x128_S1x40x1x128_0_0_0_0 : ∀ a, (![0, 0, 0, 0] : Fin 4 → Nat) a + S1x40x1x128.size a ≤ S1x40x5x128.size a
  inb_S1x40x5x128_S1x40x1x128_0_0_1_0 : ∀ a, (![0, 0, 1, 0] : Fin 4 → Nat) a + S1x40x1x128.size a ≤ S1x40x5x128.size a
  inb_S1x40x5x128_S1x40x1x128_0_0_2_0 : ∀ a, (![0, 0, 2, 0] : Fin 4 → Nat) a + S1x40x1x128.size a ≤ S1x40x5x128.size a
  inb_S1x40x5x128_S1x40x1x128_0_0_3_0 : ∀ a, (![0, 0, 3, 0] : Fin 4 → Nat) a + S1x40x1x128.size a ≤ S1x40x5x128.size a
  inb_S1x40x5x128_S1x40x1x128_0_0_4_0 : ∀ a, (![0, 0, 4, 0] : Fin 4 → Nat) a + S1x40x1x128.size a ≤ S1x40x5x128.size a
  inb_S1x40x7x128_S1x40x1x128_0_0_0_0 : ∀ a, (![0, 0, 0, 0] : Fin 4 → Nat) a + S1x40x1x128.size a ≤ S1x40x7x128.size a
  inb_S1x40x7x128_S1x40x1x128_0_0_1_0 : ∀ a, (![0, 0, 1, 0] : Fin 4 → Nat) a + S1x40x1x128.size a ≤ S1x40x7x128.size a
  inb_S1x40x7x128_S1x40x1x128_0_0_2_0 : ∀ a, (![0, 0, 2, 0] : Fin 4 → Nat) a + S1x40x1x128.size a ≤ S1x40x7x128.size a
  inb_S1x40x7x128_S1x40x1x128_0_0_3_0 : ∀ a, (![0, 0, 3, 0] : Fin 4 → Nat) a + S1x40x1x128.size a ≤ S1x40x7x128.size a
  inb_S1x40x7x128_S1x40x1x128_0_0_4_0 : ∀ a, (![0, 0, 4, 0] : Fin 4 → Nat) a + S1x40x1x128.size a ≤ S1x40x7x128.size a
  inb_S1x40x7x128_S1x40x1x128_0_0_5_0 : ∀ a, (![0, 0, 5, 0] : Fin 4 → Nat) a + S1x40x1x128.size a ≤ S1x40x7x128.size a
  inb_S1x40x7x128_S1x40x1x128_0_0_6_0 : ∀ a, (![0, 0, 6, 0] : Fin 4 → Nat) a + S1x40x1x128.size a ≤ S1x40x7x128.size a
  concatenates_S2x1000x16384_S2x1000x16384_S2x1000x16384_S2x1000x16384_S2x1000x65536_d2 : Shape.Concatenates [S2x1000x16384, S2x1000x16384, S2x1000x16384, S2x1000x16384] S2x1000x65536 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x1x128.size a ≤ S2x1000x1x128.size a
  hwx0_0 : ∀ i : grid0.Coords, EltTy.bits .f32 = 32 ∨ (Rect.block (s := S2x1000x1x128) S1x40x1x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x40x16384.size a ≤ S2x1000x16384.size a
  hwx0_1 : ∀ i : grid0.Coords, EltTy.bits .f32 = 32 ∨ (Rect.block (s := S2x1000x16384) S1x40x16384.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x40x3x128.size a ≤ S2x1000x3x128.size a
  hwx1_0 : ∀ i : grid1.Coords, EltTy.bits .f32 = 32 ∨ (Rect.block (s := S2x1000x3x128) S1x40x3x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x40x16384.size a ≤ S2x1000x16384.size a
  hwx1_1 : ∀ i : grid1.Coords, EltTy.bits .f32 = 32 ∨ (Rect.block (s := S2x1000x16384) S1x40x16384.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x40x5x128.size a ≤ S2x1000x5x128.size a
  hwx2_0 : ∀ i : grid2.Coords, EltTy.bits .f32 = 32 ∨ (Rect.block (s := S2x1000x5x128) S1x40x5x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x40x16384.size a ≤ S2x1000x16384.size a
  hwx2_1 : ∀ i : grid2.Coords, EltTy.bits .f32 = 32 ∨ (Rect.block (s := S2x1000x16384) S1x40x16384.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x40x7x128.size a ≤ S2x1000x7x128.size a
  hwx3_0 : ∀ i : grid3.Coords, EltTy.bits .f32 = 32 ∨ (Rect.block (s := S2x1000x7x128) S1x40x7x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x40x16384.size a ≤ S2x1000x16384.size a
  hwx3_1 : ∀ i : grid3.Coords, EltTy.bits .f32 = 32 ∨ (Rect.block (s := S2x1000x16384) S1x40x16384.size (cc3_transform_1 i) (hinb3_1 i)).WholeWords (EltTy.packing .f32)

variable [Facts₀]

abbrev win0_0 : Pipeline.Window sig grid0 :=
  Pipeline.Window.ofSpec (Memref.whole main_arg0) S1x40x1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x40x16384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x40x3x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x40x16384.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg2) S1x40x5x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x40x16384.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg3) S1x40x7x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1x40x16384.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S2x1000x1x128 : Shape := ⟨4, ![2, 1000, 1, 128]⟩
abbrev S2x1000x3x128 : Shape := ⟨4, ![2, 1000, 3, 128]⟩
abbrev S2x1000x5x128 : Shape := ⟨4, ![2, 1000, 5, 128]⟩
abbrev S2x1000x7x128 : Shape := ⟨4, ![2, 1000, 7, 128]⟩
abbrev S2x1000x128x128 : Shape := ⟨4, ![2, 1000, 128, 128]⟩
abbrev S_ : Shape := ⟨0, ![]⟩
abbrev S2x1000x16384 : Shape := ⟨3, ![2, 1000, 16384]⟩
abbrev S2x1000x65536 : Shape := ⟨3, ![2, 1000, 65536]⟩

abbrev nBuf : Space → Nat
  | .hbm => 25
  | .vmem => 0
  | .smem => 0
  | _ => 0

abbrev bufTy : (tb : Table) → Fin (tcTables nBuf tb) → BufTy
  | .hbm, ⟨0, _⟩ => ⟨S2x1000x1x128, .f32⟩
  | .hbm, ⟨1, _⟩ => ⟨S2x1000x3x128, .f32⟩
  | .hbm, ⟨2, _⟩ => ⟨S2x1000x5x128, .f32⟩
  | .hbm, ⟨3, _⟩ => ⟨S2x1000x7x128, .f32⟩
  | .hbm, ⟨4, _⟩ => ⟨S2x1000x128x128, .f32⟩
  | .hbm, ⟨5, _⟩ => ⟨S_, .f32⟩
  | .hbm, ⟨6, _⟩ => ⟨S2x1000x128x128, .f32⟩
  | .hbm, ⟨7, _⟩ => ⟨S2x1000x128x128, .f32⟩
  | .hbm, ⟨8, _⟩ => ⟨S2x1000x16384, .f32⟩
  | .hbm, ⟨9, _⟩ => ⟨S2x1000x128x128, .f32⟩
  | .hbm, ⟨10, _⟩ => ⟨S_, .f32⟩
  | .hbm, ⟨11, _⟩ => ⟨S2x1000x128x128, .f32⟩
  | .hbm, ⟨12, _⟩ => ⟨S2x1000x128x128, .f32⟩
  | .hbm, ⟨13, _⟩ => ⟨S2x1000x16384, .f32⟩
  | .hbm, ⟨14, _⟩ => ⟨S2x1000x128x128, .f32⟩
  | .hbm, ⟨15, _⟩ => ⟨S_, .f32⟩
  | .hbm, ⟨16, _⟩ => ⟨S2x1000x128x128, .f32⟩
  | .hbm, ⟨17, _⟩ => ⟨S2x1000x128x128, .f32⟩
  | .hbm, ⟨18, _⟩ => ⟨S2x1000x16384, .f32⟩
  | .hbm, ⟨19, _⟩ => ⟨S2x1000x128x128, .f32⟩
  | .hbm, ⟨20, _⟩ => ⟨S_, .f32⟩
  | .hbm, ⟨21, _⟩ => ⟨S2x1000x128x128, .f32⟩
  | .hbm, ⟨22, _⟩ => ⟨S2x1000x128x128, .f32⟩
  | .hbm, ⟨23, _⟩ => ⟨S2x1000x16384, .f32⟩
  | .hbm, ⟨24, _⟩ => ⟨S2x1000x65536, .f32⟩
  | _, _ => ⟨S2x1000x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S2x1000x128x128 : S_.BroadcastsInDim S2x1000x128x128 (![] : Fin 0 → Fin S2x1000x128x128.rank)
  shapeCasts_S2x1000x128x128_S2x1000x16384 : S2x1000x128x128.ShapeCasts S2x1000x16384
  concatenates_S2x1000x16384_S2x1000x16384_S2x1000x16384_S2x1000x16384_S2x1000x65536_d2 : Shape.Concatenates [S2x1000x16384, S2x1000x16384, S2x1000x16384, S2x1000x16384] S2x1000x65536 2
  dot_S2x1000x1x128_S2x1000x1x128_S2x1000x128x128_2_2_3_3_01_01_wf : DotDims.WF S2x1000x1x128 S2x1000x1x128 S2x1000x128x128 [2] [2] [3] [3] [0, 1] [0, 1]
  dot_S2x1000x3x128_S2x1000x3x128_S2x1000x128x128_2_2_3_3_01_01_wf : DotDims.WF S2x1000x3x128 S2x1000x3x128 S2x1000x128x128 [2] [2] [3] [3] [0, 1] [0, 1]
  dot_S2x1000x5x128_S2x1000x5x128_S2x1000x128x128_2_2_3_3_01_01_wf : DotDims.WF S2x1000x5x128 S2x1000x5x128 S2x1000x128x128 [2] [2] [3] [3] [0, 1] [0, 1]
  dot_S2x1000x7x128_S2x1000x7x128_S2x1000x128x128_2_2_3_3_01_01_wf : DotDims.WF S2x1000x7x128 S2x1000x7x128 S2x1000x128x128 [2] [2] [3] [3] [0, 1] [0, 1]

variable [Facts₀]

def dot_S2x1000x1x128_S2x1000x1x128_S2x1000x128x128_2_2_3_3_01_01 : DotDims S2x1000x1x128 S2x1000x1x128 S2x1000x128x128 where
  lhsContracting := [2]
  rhsContracting := [2]
  lhsNonContracting := [3]
  rhsNonContracting := [3]
  lhsBatch := [0, 1]
  rhsBatch := [0, 1]
  wf := dot_S2x1000x1x128_S2x1000x1x128_S2x1000x128x128_2_2_3_3_01_01_wf
def dot_S2x1000x3x128_S2x1000x3x128_S2x1000x128x128_2_2_3_3_01_01 : DotDims S2x1000x3x128 S2x1000x3x128 S2x1000x128x128 where
  lhsContracting := [2]
  rhsContracting := [2]
  lhsNonContracting := [3]
  rhsNonContracting := [3]
  lhsBatch := [0, 1]
  rhsBatch := [0, 1]
  wf := dot_S2x1000x3x128_S2x1000x3x128_S2x1000x128x128_2_2_3_3_01_01_wf
def dot_S2x1000x5x128_S2x1000x5x128_S2x1000x128x128_2_2_3_3_01_01 : DotDims S2x1000x5x128 S2x1000x5x128 S2x1000x128x128 where
  lhsContracting := [2]
  rhsContracting := [2]
  lhsNonContracting := [3]
  rhsNonContracting := [3]
  lhsBatch := [0, 1]
  rhsBatch := [0, 1]
  wf := dot_S2x1000x5x128_S2x1000x5x128_S2x1000x128x128_2_2_3_3_01_01_wf
def dot_S2x1000x7x128_S2x1000x7x128_S2x1000x128x128_2_2_3_3_01_01 : DotDims S2x1000x7x128 S2x1000x7x128 S2x1000x128x128 where
  lhsContracting := [2]
  rhsContracting := [2]
  lhsNonContracting := [3]
  rhsNonContracting := [3]
  lhsBatch := [0, 1]
  rhsBatch := [0, 1]
  wf := dot_S2x1000x7x128_S2x1000x7x128_S2x1000x128x128_2_2_3_3_01_01_wf

class Facts : Prop extends Facts₀ where

variable [Facts]
-- ==== Proof.Kernel.Region0.lean ====
/-
  Region 0 of the program (the pallas_call for angular order l = 0, 1 component), at the contents `V` the
  region is entered with, for any float instance.

  At a grid point the body reads its input block (40 samples × 1 × 128) one component row at a time, forms the sum
  of the rows' outer products scaled by the order's constant, and stores it over the whole output block (40 × 16384) in
  one store. So after the body the input's staging buffer is as it was, and the output's is the one stored piece
  (`stored0`: the skeleton's payload of the 1 row load). The pipeline's proof data says exactly that, keeps the
  class-A invariant (the scoped rest and the generator register, untouched) and owes nothing; the body obligation is the
  body's triple, run once symbolically, at every point.
-/
import proofs.«134989_j86088324481926_1_alg».proof.Proof.Gen.Kernel.Launch
import proofs.«134989_j86088324481926_1_alg».proof.Proof.Gen.Kernel.Skeleton
import proofs.«134989_j86088324481926_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a grid point sees of the arrays -/

/-- Window `w`'s block at grid point `t`: the array, as the region finds it, read through the block's view. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the point's block when the body starts, for any proof data over `V`'s
    array whose body leaves the block where it found it: the window is fetched whole at every point. -/
theorem input0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: 1 component row of the input block, the whole output block -/

abbrev comp0_0 : Rect S1x40x1x128 := Rect.unit (s := S1x40x1x128) ![0, 0, 0, 0] S1x40x1x128.size inb_S1x40x1x128_S1x40x1x128_0_0_0_0
abbrev whole0 : Rect S1x40x16384 := Rect.unit (s := S1x40x16384) ![0, 0, 0] S1x40x16384.size inb_S1x40x16384_S1x40x16384_0_0_0

/-- What the body leaves in the output's staging buffer, from the input block `X`: its one store, over the whole
    buffer, of the scaled sum of the rows' outer products. -/
def stored0 (X : Vec F S1x40x1x128 .f32) : Vec F S1x40x16384 .f32 :=
  View.canon [⟨whole0, k0_pay1 (View.ld X comp0_0)⟩]

/-- The one store covers the buffer. -/
theorem covers0 (p0 : Vec F S1x40x16384 .f32) (y : S1x40x16384.Idx) :
    ∃ pc ∈ ([⟨whole0, p0⟩] : List (View.Piece (Elt F) S1x40x16384 .f32)), y ∈ pc.1.set :=
  View.cover_of_tiled [⟨whole0, p0⟩] S1x40x16384.size (by rfl) y

/-! ## The body's triple -/

set_option maxHeartbeats 1000000 in
/-- On whole staging memrefs, the input's at contents `X` and the output's at anything, the body runs to a continuation
    that holds the input's as it was and the output's at `stored0 X`. -/
theorem body0_run (c : Dev nD) (E : Set ℕ) (i : grid0.Coords) (a : Memref sig .tc .vmem S1x40x1x128 .f32) (ha : a.IsWhole)
    (o : Memref sig .tc .vmem S1x40x16384 .f32) (ho : o.IsWhole) (X : Vec F S1x40x1x128 .f32) (K : PUnit → sProp 𝕄) :
    iprop(owns (c : Thread nD τ) a fullShare X ∗ (∃ d, owns (c : Thread nD τ) o fullShare d)
        ∗ (iprop(owns (c : Thread nD τ) a fullShare X ∗ owns (c : Thread nD τ) o fullShare (stored0 X)) -∗ K ⟨⟩))
      ⊢ wp frame (wpE (defs₀ (F := F)) Variants.none c none) E (cc0_kernel i a ha o ho) K := by
  simp only [cc0_kernel_eq_skeleton]; unfold cc0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers0 _)

/-! ## The pipeline's proof data and the body obligation -/

/-- Region 0's proof data on core `c`: the arrays as entered; after the body at point `t` the input's buffer at its
    block and the output's at `stored0` of it; the class-A invariant; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => stored0 (blk0 V c 0 t)
  Φ _ := Pipeline.ΦA spec0 c
  q _ := fullShare
  owed _ := 0

theorem arr0 (c : Dev nD) (w : Fin cfg0.W) : (dat0 V c).A w = V c (Pipeline.arrRef spec0 w) := by
  dsimp only [dat0]
theorem after0_in (c : Dev nD) (t : Fin cfg0.N) : (dat0 V c).after 0 t = blk0 V c 0 t := by dsimp only [dat0]
theorem after0_out (c : Dev nD) (t : Fin cfg0.N) : (dat0 V c).after 1 t = stored0 (blk0 V c 0 t) := by dsimp only [dat0]
theorem before0_in (c : Dev nD) (t : Fin cfg0.N) (d) : (dat0 V c).before 0 t d = blk0 V c 0 t :=
  input0_of V (dat0 V c) (arr0 V c 0) (after0_in V c) t d

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and the
    core's dues pass through unread. -/
theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [before0_in]
  rw [show (dat0 V c).Φ t.succ = (dat0 V c).Φ t.castSucc from rfl,
    show (dat0 V c).owesAt () t.succ = (dat0 V c).owesAt () t.castSucc from rfl,
    after0_in, after0_out]
  iintro ⟨HΦ, Ho, ⟨%d0, H0⟩, ⟨%d1, H1⟩⟩
  iapply (body0_run c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem obligation0 (c : Dev nD) : BodyObligation (dat0 (F := F) V c) (defs₀ (F := F)) Variants.none () Set.univ := fun t => by
  rw [bigSep_W0, bigSep_W0]
  exact point0 V c t

end Cert.Kernel.Reg

end
-- ==== Proof.Kernel.Region1.lean ====
/-
  Region 1 of the program (the pallas_call for angular order l = 1, 3 components), at the contents `V` the
  region is entered with, for any float instance.

  At a grid point the body reads its input block (40 samples × 3 × 128) one component row at a time, forms the sum
  of the rows' outer products scaled by the order's constant, and stores it over the whole output block (40 × 16384) in
  one store. So after the body the input's staging buffer is as it was, and the output's is the one stored piece
  (`stored1`: the skeleton's payload of the 3 row loads). The pipeline's proof data says exactly that, keeps the
  class-A invariant (the scoped rest and the generator register, untouched) and owes nothing; the body obligation is the
  body's triple, run once symbolically, at every point.
-/
import proofs.«134989_j86088324481926_1_alg».proof.Proof.Gen.Kernel.Launch
import proofs.«134989_j86088324481926_1_alg».proof.Proof.Gen.Kernel.Skeleton
import proofs.«134989_j86088324481926_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a grid point sees of the arrays -/

/-- Window `w`'s block at grid point `t`: the array, as the region finds it, read through the block's view. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds the point's block when the body starts, for any proof data over `V`'s
    array whose body leaves the block where it found it: the window is fetched whole at every point. -/
theorem input1_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: 3 component rows of the input block, the whole output block -/

abbrev comp1_0 : Rect S1x40x3x128 := Rect.unit (s := S1x40x3x128) ![0, 0, 0, 0] S1x40x1x128.size inb_S1x40x3x128_S1x40x1x128_0_0_0_0
abbrev comp1_1 : Rect S1x40x3x128 := Rect.unit (s := S1x40x3x128) ![0, 0, 1, 0] S1x40x1x128.size inb_S1x40x3x128_S1x40x1x128_0_0_1_0
abbrev comp1_2 : Rect S1x40x3x128 := Rect.unit (s := S1x40x3x128) ![0, 0, 2, 0] S1x40x1x128.size inb_S1x40x3x128_S1x40x1x128_0_0_2_0
abbrev whole1 : Rect S1x40x16384 := Rect.unit (s := S1x40x16384) ![0, 0, 0] S1x40x16384.size inb_S1x40x16384_S1x40x16384_0_0_0

/-- What the body leaves in the output's staging buffer, from the input block `X`: its one store, over the whole
    buffer, of the scaled sum of the rows' outer products. -/
def stored1 (X : Vec F S1x40x3x128 .f32) : Vec F S1x40x16384 .f32 :=
  View.canon [⟨whole1, k1_pay1 (View.ld X comp1_0) (View.ld X comp1_1) (View.ld X comp1_2)⟩]

/-- The one store covers the buffer. -/
theorem covers1 (p0 : Vec F S1x40x16384 .f32) (y : S1x40x16384.Idx) :
    ∃ pc ∈ ([⟨whole1, p0⟩] : List (View.Piece (Elt F) S1x40x16384 .f32)), y ∈ pc.1.set :=
  View.cover_of_tiled [⟨whole1, p0⟩] S1x40x16384.size (by rfl) y

/-! ## The body's triple -/

set_option maxHeartbeats 1000000 in
/-- On whole staging memrefs, the input's at contents `X` and the output's at anything, the body runs to a continuation
    that holds the input's as it was and the output's at `stored1 X`. -/
theorem body1_run (c : Dev nD) (E : Set ℕ) (i : grid1.Coords) (a : Memref sig .tc .vmem S1x40x3x128 .f32) (ha : a.IsWhole)
    (o : Memref sig .tc .vmem S1x40x16384 .f32) (ho : o.IsWhole) (X : Vec F S1x40x3x128 .f32) (K : PUnit → sProp 𝕄) :
    iprop(owns (c : Thread nD τ) a fullShare X ∗ (∃ d, owns (c : Thread nD τ) o fullShare d)
        ∗ (iprop(owns (c : Thread nD τ) a fullShare X ∗ owns (c : Thread nD τ) o fullShare (stored1 X)) -∗ K ⟨⟩))
      ⊢ wp frame (wpE (defs₀ (F := F)) Variants.none c none) E (cc1_kernel i a ha o ho) K := by
  simp only [cc1_kernel_eq_skeleton]; unfold cc1_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers1 _)

/-! ## The pipeline's proof data and the body obligation -/

/-- Region 1's proof data on core `c`: the arrays as entered; after the body at point `t` the input's buffer at its
    block and the output's at `stored1` of it; the class-A invariant; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => stored1 (blk1 V c 0 t)
  Φ _ := Pipeline.ΦA spec1 c
  q _ := fullShare
  owed _ := 0

theorem arr1 (c : Dev nD) (w : Fin cfg1.W) : (dat1 V c).A w = V c (Pipeline.arrRef spec1 w) := by
  dsimp only [dat1]
theorem after1_in (c : Dev nD) (t : Fin cfg1.N) : (dat1 V c).after 0 t = blk1 V c 0 t := by dsimp only [dat1]
theorem after1_out (c : Dev nD) (t : Fin cfg1.N) : (dat1 V c).after 1 t = stored1 (blk1 V c 0 t) := by dsimp only [dat1]
theorem before1_in (c : Dev nD) (t : Fin cfg1.N) (d) : (dat1 V c).before 0 t d = blk1 V c 0 t :=
  input1_of V (dat1 V c) (arr1 V c 0) (after1_in V c) t d

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the body's triple applies; the invariant and the
    core's dues pass through unread. -/
theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [before1_in]
  rw [show (dat1 V c).Φ t.succ = (dat1 V c).Φ t.castSucc from rfl,
    show (dat1 V c).owesAt () t.succ = (dat1 V c).owesAt () t.castSucc from rfl,
    after1_in, after1_out]
  iintro ⟨HΦ, Ho, ⟨%d0, H0⟩, ⟨%d1, H1⟩⟩
  iapply (body1_run c Set.univ _ _ _ _ _ (blk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem obligation1 (c : Dev nD) : BodyObligation (dat1 (F := F) V c) (defs₀ (F := F)) Variants.none () Set.univ := fun t => by
  rw [bigSep_W1, bigSep_W1]
  exact point1 V c t

end Cert.Kernel.Reg

end
-- ==== Proof.Kernel.Region2.lean ====
/-
  Region 2 of the program (the pallas_call for angular order l = 2, 5 components), at the contents `V` the
  region is entered with, for any float instance.

  At a grid point the body reads its input block (40 samples × 5 × 128) one component row at a time, forms the sum
  of the rows' outer products scaled by the order's constant, and stores it over the whole output block (40 × 16384) in
  one store. So after the body the input's staging buffer is as it was, and the output's is the one stored piece
  (`stored2`: the skeleton's payload of the 5 row loads). The pipeline's proof data says exactly that, keeps the
  class-A invariant (the scoped rest and the generator register, untouched) and owes nothing; the body obligation is the
  body's triple, run once symbolically, at every point.
-/
import proofs.«134989_j86088324481926_1_alg».proof.Proof.Gen.Kernel.Launch
import proofs.«134989_j86088324481926_1_alg».proof.Proof.Gen.Kernel.Skeleton
import proofs.«134989_j86088324481926_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a grid point sees of the arrays -/

/-- Window `w`'s block at grid point `t`: the array, as the region finds it, read through the block's view. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds the point's block when the body starts, for any proof data over `V`'s
    array whose body leaves the block where it found it: the window is fetched whole at every point. -/
theorem input2_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-! ## The body's accesses: 5 component rows of the input block, the whole output block -/

abbrev comp2_0 : Rect S1x40x5x128 := Rect.unit (s := S1x40x5x128) ![0, 0, 0, 0] S1x40x1x128.size inb_S1x40x5x128_S1x40x1x128_0_0_0_0
abbrev comp2_1 : Rect S1x40x5x128 := Rect.unit (s := S1x40x5x128) ![0, 0, 1, 0] S1x40x1x128.size inb_S1x40x5x128_S1x40x1x128_0_0_1_0
abbrev comp2_2 : Rect S1x40x5x128 := Rect.unit (s := S1x40x5x128) ![0, 0, 2, 0] S1x40x1x128.size inb_S1x40x5x128_S1x40x1x128_0_0_2_0
abbrev comp2_3 : Rect S1x40x5x128 := Rect.unit (s := S1x40x5x128) ![0, 0, 3, 0] S1x40x1x128.size inb_S1x40x5x128_S1x40x1x128_0_0_3_0
abbrev comp2_4 : Rect S1x40x5x128 := Rect.unit (s := S1x40x5x128) ![0, 0, 4, 0] S1x40x1x128.size inb_S1x40x5x128_S1x40x1x128_0_0_4_0
abbrev whole2 : Rect S1x40x16384 := Rect.unit (s := S1x40x16384) ![0, 0, 0] S1x40x16384.size inb_S1x40x16384_S1x40x16384_0_0_0

/-- What the body leaves in the output's staging buffer, from the input block `X`: its one store, over the whole
    buffer, of the scaled sum of the rows' outer products. -/
def stored2 (X : Vec F S1x40x5x128 .f32) : Vec F S1x40x16384 .f32 :=
  View.canon [⟨whole2, k2_pay1 (k2_pay2 (View.ld X comp2_0) (View.ld X comp2_1) (View.ld X comp2_2) (View.ld X comp2_3)) (k2_pay3 (View.ld X comp2_4))⟩]

/-- The one store covers the buffer. -/
theorem covers2 (p0 : Vec F S1x40x16384 .f32) (y : S1x40x16384.Idx) :
    ∃ pc ∈ ([⟨whole2, p0⟩] : List (View.Piece (Elt F) S1x40x16384 .f32)), y ∈ pc.1.set :=
  View.cover_of_tiled [⟨whole2, p0⟩] S1x40x16384.size (by rfl) y

/-! ## The body's triple -/

set_option maxHeartbeats 1000000 in
/-- On whole staging memrefs, the input's at contents `X` and the output's at anything, the body runs to a continuation
    that holds the input's as it was and the output's at `stored2 X`. -/
theorem body2_run (c : Dev nD) (E : Set ℕ) (i : grid2.Coords) (a : Memref sig .tc .vmem S1x40x5x128 .f32) (ha : a.IsWhole)
    (o : Memref sig .tc .vmem S1x40x16384 .f32) (ho : o.IsWhole) (X : Vec F S1x40x5x128 .f32) (K : PUnit → sProp 𝕄) :
    iprop(owns (c : Thread nD τ) a fullShare X ∗ (∃ d, owns (c : Thread nD τ) o fullShare d)
        ∗ (iprop(owns (c : Thread nD τ) a fullShare X ∗ owns (c : Thread nD τ) o fullShare (stored2 X)) -∗ K ⟨⟩))
      ⊢ wp frame (wpE (defs₀ (F := F)) Variants.none c none) E (cc2_kernel i a ha o ho) K := by
  simp only [cc2_kernel_eq_skeleton]; unfold cc2_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers2 _)

/-! ## The pipeline's proof data and the body obligation -/

/-- Region 2's proof data on core `c`: the arrays as entered; after the body at point `t` the input's buffer at its
    block and the output's at `stored2` of it; the class-A invariant; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => stored2 (blk2 V c 0 t)
  Φ _ := Pipeline.ΦA spec2 c
  q _ := fullShare
  owed _ := 0

theorem arr2 (c : Dev nD) (w : Fin cfg2.W) : (dat2 V c).A w = V c (Pipeline.arrRef spec2 w) := by
  dsimp only [dat2]
theorem after2_in (c : Dev nD) (t : Fin cfg2.N) : (dat2 V c).after 0 t = blk2 V c 0 t := by dsimp only [dat2]
theorem after2_out (c : Dev nD) (t : Fin cfg2.N) : (dat2 V c).after 1 t = stored2 (blk2 V c 0 t) := by dsimp only [dat2]
theorem before2_in (c : Dev nD) (t : Fin cfg2.N) (d) : (dat2 V c).before 0 t d = blk2 V c 0 t :=
  input2_of V (dat2 V c) (arr2 V c 0) (after2_in V c) t d

/-- What the body is called with at point `t`, the windows one by one, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's memref holds its block, so the body's triple applies; the invariant and the
    core's dues pass through unread. -/
theorem point2 (c : Dev nD) (t : Fin cfg2.N) :
    pre2 V c t ⊢ wp frame (wpE (defs₀ (F := F)) Variants.none c none) Set.univ (bodyAt2 t) (fun _ => post2 V c t) := by
  unfold pre2 post2 bodyAt2
  simp only [before2_in]
  rw [show (dat2 V c).Φ t.succ = (dat2 V c).Φ t.castSucc from rfl,
    show (dat2 V c).owesAt () t.succ = (dat2 V c).owesAt () t.castSucc from rfl,
    after2_in, after2_out]
  iintro ⟨HΦ, Ho, ⟨%d0, H0⟩, ⟨%d1, H1⟩⟩
  iapply (body2_run c Set.univ _ _ _ _ _ (blk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem obligation2 (c : Dev nD) : BodyObligation (dat2 (F := F) V c) (defs₀ (F := F)) Variants.none () Set.univ := fun t => by
  rw [bigSep_W2, bigSep_W2]
  exact point2 V c t

end Cert.Kernel.Reg

end
-- ==== Proof.Kernel.Region3.lean ====
/-
  Region 3 of the program (the pallas_call for angular order l = 3, 7 components), at the contents `V` the
  region is entered with, for any float instance.

  At a grid point the body reads its input block (40 samples × 7 × 128) one component row at a time, forms the sum
  of the rows' outer products scaled by the order's constant, and stores it over the whole output block (40 × 16384) in
  one store. So after the body the input's staging buffer is as it was, and the output's is the one stored piece
  (`stored3`: the skeleton's payload of the 7 row loads). The pipeline's proof data says exactly that, keeps the
  class-A invariant (the scoped rest and the generator register, untouched) and owes nothing; the body obligation is the
  body's triple, run once symbolically, at every point.
-/
import proofs.«134989_j86088324481926_1_alg».proof.Proof.Gen.Kernel.Launch
import proofs.«134989_j86088324481926_1_alg».proof.Proof.Gen.Kernel.Skeleton
import proofs.«134989_j86088324481926_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a grid point sees of the arrays -/

/-- Window `w`'s block at grid point `t`: the array, as the region finds it, read through the block's view. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's staging buffer holds the point's block when the body starts, for any proof data over `V`'s
    array whose body leaves the block where it found it: the window is fetched whole at every point. -/
theorem input3_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-! ## The body's accesses: 7 component rows of the input block, the whole output block -/

abbrev comp3_0 : Rect S1x40x7x128 := Rect.unit (s := S1x40x7x128) ![0, 0, 0, 0] S1x40x1x128.size inb_S1x40x7x128_S1x40x1x128_0_0_0_0
abbrev comp3_1 : Rect S1x40x7x128 := Rect.unit (s := S1x40x7x128) ![0, 0, 1, 0] S1x40x1x128.size inb_S1x40x7x128_S1x40x1x128_0_0_1_0
abbrev comp3_2 : Rect S1x40x7x128 := Rect.unit (s := S1x40x7x128) ![0, 0, 2, 0] S1x40x1x128.size inb_S1x40x7x128_S1x40x1x128_0_0_2_0
abbrev comp3_3 : Rect S1x40x7x128 := Rect.unit (s := S1x40x7x128) ![0, 0, 3, 0] S1x40x1x128.size inb_S1x40x7x128_S1x40x1x128_0_0_3_0
abbrev comp3_4 : Rect S1x40x7x128 := Rect.unit (s := S1x40x7x128) ![0, 0, 4, 0] S1x40x1x128.size inb_S1x40x7x128_S1x40x1x128_0_0_4_0
abbrev comp3_5 : Rect S1x40x7x128 := Rect.unit (s := S1x40x7x128) ![0, 0, 5, 0] S1x40x1x128.size inb_S1x40x7x128_S1x40x1x128_0_0_5_0
abbrev comp3_6 : Rect S1x40x7x128 := Rect.unit (s := S1x40x7x128) ![0, 0, 6, 0] S1x40x1x128.size inb_S1x40x7x128_S1x40x1x128_0_0_6_0
abbrev whole3 : Rect S1x40x16384 := Rect.unit (s := S1x40x16384) ![0, 0, 0] S1x40x16384.size inb_S1x40x16384_S1x40x16384_0_0_0

/-- What the body leaves in the output's staging buffer, from the input block `X`: its one store, over the whole
    buffer, of the scaled sum of the rows' outer products. -/
def stored3 (X : Vec F S1x40x7x128 .f32) : Vec F S1x40x16384 .f32 :=
  View.canon [⟨whole3, k3_pay1 (k3_pay2 (View.ld X comp3_0) (View.ld X comp3_1) (View.ld X comp3_2) (View.ld X comp3_3)) (k3_pay3 (View.ld X comp3_4)) (View.ld X comp3_5) (View.ld X comp3_6)⟩]

/-- The one store covers the buffer. -/
theorem covers3 (p0 : Vec F S1x40x16384 .f32) (y : S1x40x16384.Idx) :
    ∃ pc ∈ ([⟨whole3, p0⟩] : List (View.Piece (Elt F) S1x40x16384 .f32)), y ∈ pc.1.set :=
  View.cover_of_tiled [⟨whole3, p0⟩] S1x40x16384.size (by rfl) y

/-! ## The body's triple -/

set_option maxHeartbeats 1000000 in
/-- On whole staging memrefs, the input's at contents `X` and the output's at anything, the body runs to a continuation
    that holds the input's as it was and the output's at `stored3 X`. -/
theorem body3_run (c : Dev nD) (E : Set ℕ) (i : grid3.Coords) (a : Memref sig .tc .vmem S1x40x7x128 .f32) (ha : a.IsWhole)
    (o : Memref sig .tc .vmem S1x40x16384 .f32) (ho : o.IsWhole) (X : Vec F S1x40x7x128 .f32) (K : PUnit → sProp 𝕄) :
    iprop(owns (c : Thread nD τ) a fullShare X ∗ (∃ d, owns (c : Thread nD τ) o fullShare d)
        ∗ (iprop(owns (c : Thread nD τ) a fullShare X ∗ owns (c : Thread nD τ) o fullShare (stored3 X)) -∗ K ⟨⟩))
      ⊢ wp frame (wpE (defs₀ (F := F)) Variants.none c none) E (cc3_kernel i a ha o ho) K := by
  simp only [cc3_kernel_eq_skeleton]; unfold cc3_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers3 _)

/-! ## The pipeline's proof data and the body obligation -/

/-- Region 3's proof data on core `c`: the arrays as entered; after the body at point `t` the input's buffer at its
    block and the output's at `stored3` of it; the class-A invariant; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => stored3 (blk3 V c 0 t)
  Φ _ := Pipeline.ΦA spec3 c
  q _ := fullShare
  owed _ := 0

theorem arr3 (c : Dev nD) (w : Fin cfg3.W) : (dat3 V c).A w = V c (Pipeline.arrRef spec3 w) := by
  dsimp only [dat3]
theorem after3_in (c : Dev nD) (t : Fin cfg3.N) : (dat3 V c).after 0 t = blk3 V c 0 t := by dsimp only [dat3]
theorem after3_out (c : Dev nD) (t : Fin cfg3.N) : (dat3 V c).after 1 t = stored3 (blk3 V c 0 t) := by dsimp only [dat3]
theorem before3_in (c : Dev nD) (t : Fin cfg3.N) (d) : (dat3 V c).before 0 t d = blk3 V c 0 t :=
  input3_of V (dat3 V c) (arr3 V c 0) (after3_in V c) t d

/-- What the body is called with at point `t`, the windows one by one, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's memref holds its block, so the body's triple applies; the invariant and the
    core's dues pass through unread. -/
theorem point3 (c : Dev nD) (t : Fin cfg3.N) :
    pre3 V c t ⊢ wp frame (wpE (defs₀ (F := F)) Variants.none c none) Set.univ (bodyAt3 t) (fun _ => post3 V c t) := by
  unfold pre3 post3 bodyAt3
  simp only [before3_in]
  rw [show (dat3 V c).Φ t.succ = (dat3 V c).Φ t.castSucc from rfl,
    show (dat3 V c).owesAt () t.succ = (dat3 V c).owesAt () t.castSucc from rfl,
    after3_in, after3_out]
  iintro ⟨HΦ, Ho, ⟨%d0, H0⟩, ⟨%d1, H1⟩⟩
  iapply (body3_run c Set.univ _ _ _ _ _ (blk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem obligation3 (c : Dev nD) : BodyObligation (dat3 (F := F) V c) (defs₀ (F := F)) Variants.none () Set.univ := fun t => by
  rw [bigSep_W3, bigSep_W3]
  exact point3 V c t

end Cert.Kernel.Reg

end
-- ==== Proof.Kernel.Run.lean ====
/-
  The run of the whole program: four kernel regions one after the other, then the host's concatenation.

  Between two items of @main a core holds every unscoped buffer whole at known contents. The contents at each
  boundary are a fold from the launch memory: a region changes only its own two arrays — the input stays as entered,
  the output ends at what the pipeline's write-backs leave, folded over the grid (`Dat.arrAt`) — and the host tail
  applies its one operation. Each region is entered from the contents the item before it left; beside the buffers ride
  the core's generator register (which the class-A invariant takes in and gives back) and the fact that the core owes
  nothing. The launch theorem for a list of segments then says: every weakly fair execution terminates, nothing faults,
  and at the end every unscoped buffer holds the last boundary's contents. From that one post both the frame (an argument
  array is written by no item) and the value of the result (the concatenation of the four regions' outputs) are read off.
-/
import proofs.«134989_j86088324481926_1_alg».proof.Proof.Kernel.Region0
import proofs.«134989_j86088324481926_1_alg».proof.Proof.Kernel.Region1
import proofs.«134989_j86088324481926_1_alg».proof.Proof.Kernel.Region2
import proofs.«134989_j86088324481926_1_alg».proof.Proof.Kernel.Region3
import Idealize.ShloMosaic.Lib.Pipeline.RegionsLoop
import Idealize.ShloMosaic.Lib.Pipeline.FrameSuffix

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev B0 : Dev nD → Valuation τ sig (Elt F) := fun c b => m ((c : Dev nD), b)
/-- The same read at the TensorCore's references: what region 0 is entered with. -/
abbrev E0 : (c : Dev nD) → (b : Ref sig .tc) → Buf (Elt F) ((c : Thread nD τ).loc b) := fun c b => B0 m c b

/-- After region 0: its arrays at what the pipeline leaves (the input as entered, the output's write-backs folded over the
    grid), every other buffer as region 0 found it. -/
def B1 (c : Dev nD) : Valuation τ sig (Elt F) :=
  Pipeline.withArrays spec0 c (B0 m c) fun w => (dat0 (E0 m) c).arrAt w cfg0.N
theorem B1_arr (c : Dev nD) (w : Fin cfg0.W) :
    B1 m c (Proc.devRef .tc (Pipeline.arrRef spec0 w)) = (dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
/-- The same read at the TensorCore's references: what region 1 is entered with. -/
abbrev E1 : (c : Dev nD) → (b : Ref sig .tc) → Buf (Elt F) ((c : Thread nD τ).loc b) := fun c b => B1 m c b
theorem exit0 (c : Dev nD) (w : Fin cfg0.W) : (dat0 (E0 m) c).arrAt w cfg0.N = E1 m c (Pipeline.arrRef spec0 w) :=
  (B1_arr m c w).symm
theorem rest0 (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After region 1: its arrays at what the pipeline leaves (the input as entered, the output's write-backs folded over the
    grid), every other buffer as region 1 found it. -/
def B2 (c : Dev nD) : Valuation τ sig (Elt F) :=
  Pipeline.withArrays spec1 c (B1 m c) fun w => (dat1 (E1 m) c).arrAt w cfg1.N
theorem B2_arr (c : Dev nD) (w : Fin cfg1.W) :
    B2 m c (Proc.devRef .tc (Pipeline.arrRef spec1 w)) = (dat1 (E1 m) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
/-- The same read at the TensorCore's references: what region 2 is entered with. -/
abbrev E2 : (c : Dev nD) → (b : Ref sig .tc) → Buf (Elt F) ((c : Thread nD τ).loc b) := fun c b => B2 m c b
theorem exit1 (c : Dev nD) (w : Fin cfg1.W) : (dat1 (E1 m) c).arrAt w cfg1.N = E2 m c (Pipeline.arrRef spec1 w) :=
  (B2_arr m c w).symm
theorem rest1 (c : Dev nD) : ∀ b, b ∉ Finset.univ.image (Pipeline.arrRef spec1) → E2 m c b = E1 m c b :=
  fun b hb => B2_of_ne m c b fun w e => hb (Finset.mem_image.mpr ⟨w, Finset.mem_univ _, e⟩)

/-- After region 2: its arrays at what the pipeline leaves (the input as entered, the output's write-backs folded over the
    grid), every other buffer as region 2 found it. -/
def B3 (c : Dev nD) : Valuation τ sig (Elt F) :=
  Pipeline.withArrays spec2 c (B2 m c) fun w => (dat2 (E2 m) c).arrAt w cfg2.N
theorem B3_arr (c : Dev nD) (w : Fin cfg2.W) :
    B3 m c (Proc.devRef .tc (Pipeline.arrRef spec2 w)) = (dat2 (E2 m) c).arrAt w cfg2.N := by
  unfold B3; exact Pipeline.withArrays_arr spec2 launch2.win.arr_inj c _ _ w
theorem B3_of_ne (c : Dev nD) (b : Ref sig .tc) (hb : ∀ w, Pipeline.arrRef spec2 w ≠ b) :
    B3 m c (Proc.devRef .tc b) = B2 m c (Proc.devRef .tc b) := by
  unfold B3; exact Pipeline.withArrays_of_ne spec2 c _ _ b hb
/-- The same read at the TensorCore's references: what region 3 is entered with. -/
abbrev E3 : (c : Dev nD) → (b : Ref sig .tc) → Buf (Elt F) ((c : Thread nD τ).loc b) := fun c b => B3 m c b
theorem exit2 (c : Dev nD) (w : Fin cfg2.W) : (dat2 (E2 m) c).arrAt w cfg2.N = E3 m c (Pipeline.arrRef spec2 w) :=
  (B3_arr m c w).symm
theorem rest2 (c : Dev nD) : ∀ b, b ∉ Finset.univ.image (Pipeline.arrRef spec2) → E3 m c b = E2 m c b :=
  fun b hb => B3_of_ne m c b fun w e => hb (Finset.mem_image.mpr ⟨w, Finset.mem_univ _, e⟩)

/-- After region 3: its arrays at what the pipeline leaves (the input as entered, the output's write-backs folded over the
    grid), every other buffer as region 3 found it. -/
def B4 (c : Dev nD) : Valuation τ sig (Elt F) :=
  Pipeline.withArrays spec3 c (B3 m c) fun w => (dat3 (E3 m) c).arrAt w cfg3.N
theorem B4_arr (c : Dev nD) (w : Fin cfg3.W) :
    B4 m c (Proc.devRef .tc (Pipeline.arrRef spec3 w)) = (dat3 (E3 m) c).arrAt w cfg3.N := by
  unfold B4; exact Pipeline.withArrays_arr spec3 launch3.win.arr_inj c _ _ w
theorem B4_of_ne (c : Dev nD) (b : Ref sig .tc) (hb : ∀ w, Pipeline.arrRef spec3 w ≠ b) :
    B4 m c (Proc.devRef .tc b) = B3 m c (Proc.devRef .tc b) := by
  unfold B4; exact Pipeline.withArrays_of_ne spec3 c _ _ b hb
/-- The same read at the TensorCore's references: what the host tail reads. -/
abbrev E4 : (c : Dev nD) → (b : Ref sig .tc) → Buf (Elt F) ((c : Thread nD τ).loc b) := fun c b => B4 m c b
theorem exit3 (c : Dev nD) (w : Fin cfg3.W) : (dat3 (E3 m) c).arrAt w cfg3.N = E4 m c (Pipeline.arrRef spec3 w) :=
  (B4_arr m c w).symm
theorem rest3 (c : Dev nD) : ∀ b, b ∉ Finset.univ.image (Pipeline.arrRef spec3) → E4 m c b = E3 m c b :=
  fun b hb => B4_of_ne m c b fun w e => hb (Finset.mem_image.mpr ⟨w, Finset.mem_univ _, e⟩)

/-- After the host tail: the concatenation written into the result. -/
abbrev B5 : Dev nD → Valuation τ sig (Elt F) := fun c => StableHlo.after hostOps4 (B4 m c)

/-! ## What the last boundary holds -/

/-- `main_arg0` reaches the end as launched: the host tail does not write it, region 0 only reads it, no other region touches it. -/
theorem B5_main_arg0 (c : Dev nD) : B5 m c (Proc.devRef .tc main_arg0) = m ((c : Thread nD τ).loc main_arg0) :=
  (show StableHlo.after hostOps4 (B4 m c) (Proc.devRef .tc main_arg0) = B4 m c (Proc.devRef .tc main_arg0) from by after_results <;> rfl).trans <|
    (B4_of_ne m c main_arg0 (by decide)).trans <| (B3_of_ne m c main_arg0 (by decide)).trans <| (B2_of_ne m c main_arg0 (by decide)).trans <| (B1_arr m c 0).trans <| ((dat0 (E0 m) c).arrAt_in 0 rfl _).trans <| (arr0 (E0 m) c 0).trans rfl
/-- Region 0 is entered with its input as launched. -/
theorem E0_main_arg0 (c : Dev nD) : E0 m c main_arg0 = m ((c : Thread nD τ).loc main_arg0) := rfl
/-- `main_arg1` reaches the end as launched: the host tail does not write it, region 1 only reads it, no other region touches it. -/
theorem B5_main_arg1 (c : Dev nD) : B5 m c (Proc.devRef .tc main_arg1) = m ((c : Thread nD τ).loc main_arg1) :=
  (show StableHlo.after hostOps4 (B4 m c) (Proc.devRef .tc main_arg1) = B4 m c (Proc.devRef .tc main_arg1) from by after_results <;> rfl).trans <|
    (B4_of_ne m c main_arg1 (by decide)).trans <| (B3_of_ne m c main_arg1 (by decide)).trans <| (B2_arr m c 0).trans <| ((dat1 (E1 m) c).arrAt_in 0 rfl _).trans <| (arr1 (E1 m) c 0).trans ((B1_of_ne m c main_arg1 (by decide)))
/-- Region 1 is entered with its input as launched. -/
theorem E1_main_arg1 (c : Dev nD) : E1 m c main_arg1 = m ((c : Thread nD τ).loc main_arg1) := (B1_of_ne m c main_arg1 (by decide))
/-- `main_arg2` reaches the end as launched: the host tail does not write it, region 2 only reads it, no other region touches it. -/
theorem B5_main_arg2 (c : Dev nD) : B5 m c (Proc.devRef .tc main_arg2) = m ((c : Thread nD τ).loc main_arg2) :=
  (show StableHlo.after hostOps4 (B4 m c) (Proc.devRef .tc main_arg2) = B4 m c (Proc.devRef .tc main_arg2) from by after_results <;> rfl).trans <|
    (B4_of_ne m c main_arg2 (by decide)).trans <| (B3_arr m c 0).trans <| ((dat2 (E2 m) c).arrAt_in 0 rfl _).trans <| (arr2 (E2 m) c 0).trans ((B2_of_ne m c main_arg2 (by decide)).trans (B1_of_ne m c main_arg2 (by decide)))
/-- Region 2 is entered with its input as launched. -/
theorem E2_main_arg2 (c : Dev nD) : E2 m c main_arg2 = m ((c : Thread nD τ).loc main_arg2) := (B2_of_ne m c main_arg2 (by decide)).trans (B1_of_ne m c main_arg2 (by decide))
/-- `main_arg3` reaches the end as launched: the host tail does not write it, region 3 only reads it, no other region touches it. -/
theorem B5_main_arg3 (c : Dev nD) : B5 m c (Proc.devRef .tc main_arg3) = m ((c : Thread nD τ).loc main_arg3) :=
  (show StableHlo.after hostOps4 (B4 m c) (Proc.devRef .tc main_arg3) = B4 m c (Proc.devRef .tc main_arg3) from by after_results <;> rfl).trans <|
    (B4_arr m c 0).trans <| ((dat3 (E3 m) c).arrAt_in 0 rfl _).trans <| (arr3 (E3 m) c 0).trans (((B3_of_ne m c main_arg3 (by decide)).trans (B2_of_ne m c main_arg3 (by decide))).trans (B1_of_ne m c main_arg3 (by decide)))
/-- Region 3 is entered with its input as launched. -/
theorem E3_main_arg3 (c : Dev nD) : E3 m c main_arg3 = m ((c : Thread nD τ).loc main_arg3) := ((B3_of_ne m c main_arg3 (by decide)).trans (B2_of_ne m c main_arg3 (by decide))).trans (B1_of_ne m c main_arg3 (by decide))

/-- Each region's output array keeps, to the end of the regions, what that region's write-backs left. -/
theorem B4_main_v0 (c : Dev nD) : B4 m c (Proc.devRef .tc main_v0) = (dat0 (E0 m) c).arrAt 1 cfg0.N :=
  (B4_of_ne m c main_v0 (by decide)).trans <| (B3_of_ne m c main_v0 (by decide)).trans <| (B2_of_ne m c main_v0 (by decide)).trans <| B1_arr m c 1
theorem B4_main_v1 (c : Dev nD) : B4 m c (Proc.devRef .tc main_v1) = (dat1 (E1 m) c).arrAt 1 cfg1.N :=
  (B4_of_ne m c main_v1 (by decide)).trans <| (B3_of_ne m c main_v1 (by decide)).trans <| B2_arr m c 1
theorem B4_main_v2 (c : Dev nD) : B4 m c (Proc.devRef .tc main_v2) = (dat2 (E2 m) c).arrAt 1 cfg2.N :=
  (B4_of_ne m c main_v2 (by decide)).trans <| B3_arr m c 1
theorem B4_main_v3 (c : Dev nD) : B4 m c (Proc.devRef .tc main_v3) = (dat3 (E3 m) c).arrAt 1 cfg3.N :=
  B4_arr m c 1

/-- The result is the concatenation, along the last axis, of the four regions' output arrays. -/
theorem B5_result (c : Dev nD) : B5 m c (Proc.devRef .tc main_v4)
    = concatenate S2x1000x65536 2 [⟨S2x1000x16384, (dat0 (E0 m) c).arrAt 1 cfg0.N⟩, ⟨S2x1000x16384, (dat1 (E1 m) c).arrAt 1 cfg1.N⟩,
        ⟨S2x1000x16384, (dat2 (E2 m) c).arrAt 1 cfg2.N⟩, ⟨S2x1000x16384, (dat3 (E3 m) c).arrAt 1 cfg3.N⟩]
      concatenates_S2x1000x16384_S2x1000x16384_S2x1000x16384_S2x1000x16384_S2x1000x65536_d2 := by
  rw [← B4_main_v0 m c, ← B4_main_v1 m c, ← B4_main_v2 m c, ← B4_main_v3 m c]
  show StableHlo.after hostOps4 (B4 m c) (Proc.devRef .tc main_v4) = _
  after_results <;> rfl

/-! ## The proof-data family and what rides beside the buffers -/

/-- No pallas_call has a prefetched table. -/
abbrev noTables : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) noTables p) c
  | ⟨0, _⟩ => fun c => dat0 (E0 m) c
  | ⟨1, _⟩ => fun c => dat1 (E1 m) c
  | ⟨2, _⟩ => fun c => dat2 (E2 m) c
  | ⟨3, _⟩ => fun c => dat3 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev rides (c : Dev nD) : sProp 𝕄 := iprop((∃ r, prngReg c r) ∗ ∃ W, owes (c : Thread nD τ) (0 : CellTallies nD τ sig Unit) W)

theorem hostOps4_alloc : (hostOps4 : List (HloOp τ sig (Elt F))).Forall fun op => op.fresh = ∅ := by
  simp only [List.Forall]; repeat' constructor
/-- The host tail as a segment over the unscoped references, from the contents region 3 left. -/
abbrev tail : Pipeline.HostSeg (Name := ℕ) (U := UR sig nD τ) (pcfgs (F := F)) defs₀ 𝒱₀ L lv :=
  Pipeline.HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_alloc) op h) (B4 m) rides
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may unfold
-- plain definitions in a metavariable's type
set_option backward.isDefEq.respectTransparency.types false in
/-- Region 0 as a segment: entered with every unscoped buffer at `B0`, left with them at `B1`. Its two arrays are
    split out of the unscoped buffers at entry and put back at their exit contents; the generator register goes into the
    class-A invariant and comes back; nothing is owed; the kernel has no semaphore of its own. -/
def reg0 : Pipeline.RegionSeg (pcfgs (F := F)) noTables (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (E0 m) c).loose
  hwaits := Pipeline.hwaits_of_owed_zero _ _ _ _ L lv 0 fun _ _ => rfl
  pre c := iprop(StableHlo.held (c : Thread nD τ) (Pipeline.ucRefs τ sig) (B0 m c) ∗ rides c)
  post c := iprop(StableHlo.held (c : Thread nD τ) (Pipeline.ucRefs τ sig) (B1 m c) ∗ rides c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment: entered with every unscoped buffer at `B1`, left with them at `B2`. Its two arrays are
    split out of the unscoped buffers at entry and put back at their exit contents; the generator register goes into the
    class-A invariant and comes back; nothing is owed; the kernel has no semaphore of its own. -/
def reg1 : Pipeline.RegionSeg (pcfgs (F := F)) noTables (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (E1 m) c).loose
  hwaits := Pipeline.hwaits_of_owed_zero _ _ _ _ L lv 1 fun _ _ => rfl
  pre c := iprop(StableHlo.held (c : Thread nD τ) (Pipeline.ucRefs τ sig) (B1 m c) ∗ rides c)
  post c := iprop(StableHlo.held (c : Thread nD τ) (Pipeline.ucRefs τ sig) (B2 m c) ∗ rides c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (exit1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 as a segment: entered with every unscoped buffer at `B2`, left with them at `B3`. Its two arrays are
    split out of the unscoped buffers at entry and put back at their exit contents; the generator register goes into the
    class-A invariant and comes back; nothing is owed; the kernel has no semaphore of its own. -/
def reg2 : Pipeline.RegionSeg (pcfgs (F := F)) noTables (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (E2 m) c).loose
  hwaits := Pipeline.hwaits_of_owed_zero _ _ _ _ L lv 2 fun _ _ => rfl
  pre c := iprop(StableHlo.held (c : Thread nD τ) (Pipeline.ucRefs τ sig) (B2 m c) ∗ rides c)
  post c := iprop(StableHlo.held (c : Thread nD τ) (Pipeline.ucRefs τ sig) (B3 m c) ∗ rides c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) noTables (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (exit2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 as a segment: entered with every unscoped buffer at `B3`, left with them at `B4`. Its two arrays are
    split out of the unscoped buffers at entry and put back at their exit contents; the generator register goes into the
    class-A invariant and comes back; nothing is owed; the kernel has no semaphore of its own. -/
def reg3 : Pipeline.RegionSeg (pcfgs (F := F)) noTables (pdats m) () defs₀ 𝒱₀ L lv 3 where
  win := launch3.win.to₀
  block_pos := launch3.block_pos
  stage_whole := launch3.stage_whole
  K := PEmpty
  osem k := k.elim
  ho := Pipeline.OwnSemFacts.none _
  hbody c := (obligation3 (E3 m) c).loose
  hwaits := Pipeline.hwaits_of_owed_zero _ _ _ _ L lv 3 fun _ _ => rfl
  pre c := iprop(StableHlo.held (c : Thread nD τ) (Pipeline.ucRefs τ sig) (B3 m c) ∗ rides c)
  post c := iprop(StableHlo.held (c : Thread nD τ) (Pipeline.ucRefs τ sig) (B4 m c) ∗ rides c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) noTables (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (pdats m) ((pdats m 3 c).share_full fun _ => rfl)
      (E3 m c) (E4 m c) ((pdats m 3 c).arrAt · cfg3.N) (exit3 m c) (rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) noTables (pdats m) () defs₀ 𝒱₀ L lv) :=
  [ .region (reg0 m), .region (reg1 m), .region (reg2 m), .region (reg3 m), .host (tail m) ]
theorem main_run (c : Dev nD) : main (F := F) c = Pipeline.Seg.run (segs m) := (main_chain c).trans (by chain_rfl)

/-- The last thread state without the dues: every unscoped buffer at the final contents, the generator register at some state. -/
abbrev atEnd (c : Dev nD) : sProp 𝕄 := iprop(StableHlo.held (c : Thread nD τ) (Pipeline.ucRefs τ sig) (B5 m c) ∗ ∃ r, prngReg c r)

set_option backward.isDefEq.respectTransparency.types false in
/-- THE RUN. From any memory with zero counters every weakly fair execution of @main terminates, nothing faulting, and
    in every final state each unscoped buffer of each core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) noTables (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ rides c)) (Tₙ := atEnd m)
    (hch := ⟨fun _ => .rfl, fun _ => .rfl, fun _ => .rfl, fun _ => .rfl, fun _ => .rfl, fun c => by
      show (iprop(StableHlo.held (c : Thread nD τ) (Pipeline.ucRefs τ sig) (B5 m c) ∗ rides c) : sProp 𝕄)
        ⊢ iprop(atEnd m c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h => h)

end Cert.Kernel.Reg

end
-- ==== Proof.KernelIdeal.Region0.lean ====
/-
  Region 0 of the program (the pallas_call for angular order l = 0, 1 component), at the contents `V` the
  region is entered with, for any float instance.

  At a grid point the body reads its input block (40 samples × 1 × 128) one component row at a time, forms the sum
  of the rows' outer products scaled by the order's constant, and stores it over the whole output block (40 × 16384) in
  one store. So after the body the input's staging buffer is as it was, and the output's is the one stored piece
  (`stored0`: the skeleton's payload of the 1 row load). The pipeline's proof data says exactly that, keeps the
  class-A invariant (the scoped rest and the generator register, untouched) and owes nothing; the body obligation is the
  body's triple, run once symbolically, at every point.
-/
import proofs.«134989_j86088324481926_1_alg».proof.Proof.Gen.KernelIdeal.Launch
import proofs.«134989_j86088324481926_1_alg».proof.Proof.Gen.KernelIdeal.Skeleton
import proofs.«134989_j86088324481926_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a grid point sees of the arrays -/

/-- Window `w`'s block at grid point `t`: the array, as the region finds it, read through the block's view. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the point's block when the body starts, for any proof data over `V`'s
    array whose body leaves the block where it found it: the window is fetched whole at every point. -/
theorem input0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: 1 component row of the input block, the whole output block -/

abbrev comp0_0 : Rect S1x40x1x128 := Rect.unit (s := S1x40x1x128) ![0, 0, 0, 0] S1x40x1x128.size inb_S1x40x1x128_S1x40x1x128_0_0_0_0
abbrev whole0 : Rect S1x40x16384 := Rect.unit (s := S1x40x16384) ![0, 0, 0] S1x40x16384.size inb_S1x40x16384_S1x40x16384_0_0_0

/-- What the body leaves in the output's staging buffer, from the input block `X`: its one store, over the whole
    buffer, of the scaled sum of the rows' outer products. -/
def stored0 (X : Vec F S1x40x1x128 .f32) : Vec F S1x40x16384 .f32 :=
  View.canon [⟨whole0, k0_pay1 (View.ld X comp0_0)⟩]

/-- The one store covers the buffer. -/
theorem covers0 (p0 : Vec F S1x40x16384 .f32) (y : S1x40x16384.Idx) :
    ∃ pc ∈ ([⟨whole0, p0⟩] : List (View.Piece (Elt F) S1x40x16384 .f32)), y ∈ pc.1.set :=
  View.cover_of_tiled [⟨whole0, p0⟩] S1x40x16384.size (by rfl) y

/-! ## The body's triple -/

set_option maxHeartbeats 1000000 in
/-- On whole staging memrefs, the input's at contents `X` and the output's at anything, the body runs to a continuation
    that holds the input's as it was and the output's at `stored0 X`. -/
theorem body0_run (c : Dev nD) (E : Set ℕ) (i : grid0.Coords) (a : Memref sig .tc .vmem S1x40x1x128 .f32) (ha : a.IsWhole)
    (o : Memref sig .tc .vmem S1x40x16384 .f32) (ho : o.IsWhole) (X : Vec F S1x40x1x128 .f32) (K : PUnit → sProp 𝕄) :
    iprop(owns (c : Thread nD τ) a fullShare X ∗ (∃ d, owns (c : Thread nD τ) o fullShare d)
        ∗ (iprop(owns (c : Thread nD τ) a fullShare X ∗ owns (c : Thread nD τ) o fullShare (stored0 X)) -∗ K ⟨⟩))
      ⊢ wp frame (wpE (defs₀ (F := F)) Variants.none c none) E (cc0_kernel i a ha o ho) K := by
  simp only [cc0_kernel_eq_skeleton]; unfold cc0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers0 _)

/-! ## The pipeline's proof data and the body obligation -/

/-- Region 0's proof data on core `c`: the arrays as entered; after the body at point `t` the input's buffer at its
    block and the output's at `stored0` of it; the class-A invariant; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => stored0 (blk0 V c 0 t)
  Φ _ := Pipeline.ΦA spec0 c
  q _ := fullShare
  owed _ := 0

theorem arr0 (c : Dev nD) (w : Fin cfg0.W) : (dat0 V c).A w = V c (Pipeline.arrRef spec0 w) := by
  dsimp only [dat0]
theorem after0_in (c : Dev nD) (t : Fin cfg0.N) : (dat0 V c).after 0 t = blk0 V c 0 t := by dsimp only [dat0]
theorem after0_out (c : Dev nD) (t : Fin cfg0.N) : (dat0 V c).after 1 t = stored0 (blk0 V c 0 t) := by dsimp only [dat0]
theorem before0_in (c : Dev nD) (t : Fin cfg0.N) (d) : (dat0 V c).before 0 t d = blk0 V c 0 t :=
  input0_of V (dat0 V c) (arr0 V c 0) (after0_in V c) t d

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and the
    core's dues pass through unread. -/
theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [before0_in]
  rw [show (dat0 V c).Φ t.succ = (dat0 V c).Φ t.castSucc from rfl,
    show (dat0 V c).owesAt () t.succ = (dat0 V c).owesAt () t.castSucc from rfl,
    after0_in, after0_out]
  iintro ⟨HΦ, Ho, ⟨%d0, H0⟩, ⟨%d1, H1⟩⟩
  iapply (body0_run c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem obligation0 (c : Dev nD) : BodyObligation (dat0 (F := F) V c) (defs₀ (F := F)) Variants.none () Set.univ := fun t => by
  rw [bigSep_W0, bigSep_W0]
  exact point0 V c t

end Cert.KernelIdeal.Reg

end
-- ==== Proof.KernelIdeal.Region1.lean ====
/-
  Region 1 of the program (the pallas_call for angular order l = 1, 3 components), at the contents `V` the
  region is entered with, for any float instance.

  At a grid point the body reads its input block (40 samples × 3 × 128) one component row at a time, forms the sum
  of the rows' outer products scaled by the order's constant, and stores it over the whole output block (40 × 16384) in
  one store. So after the body the input's staging buffer is as it was, and the output's is the one stored piece
  (`stored1`: the skeleton's payload of the 3 row loads). The pipeline's proof data says exactly that, keeps the
  class-A invariant (the scoped rest and the generator register, untouched) and owes nothing; the body obligation is the
  body's triple, run once symbolically, at every point.
-/
import proofs.«134989_j86088324481926_1_alg».proof.Proof.Gen.KernelIdeal.Launch
import proofs.«134989_j86088324481926_1_alg».proof.Proof.Gen.KernelIdeal.Skeleton
import proofs.«134989_j86088324481926_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a grid point sees of the arrays -/

/-- Window `w`'s block at grid point `t`: the array, as the region finds it, read through the block's view. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds the point's block when the body starts, for any proof data over `V`'s
    array whose body leaves the block where it found it: the window is fetched whole at every point. -/
theorem input1_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: 3 component rows of the input block, the whole output block -/

abbrev comp1_0 : Rect S1x40x3x128 := Rect.unit (s := S1x40x3x128) ![0, 0, 0, 0] S1x40x1x128.size inb_S1x40x3x128_S1x40x1x128_0_0_0_0
abbrev comp1_1 : Rect S1x40x3x128 := Rect.unit (s := S1x40x3x128) ![0, 0, 1, 0] S1x40x1x128.size inb_S1x40x3x128_S1x40x1x128_0_0_1_0
abbrev comp1_2 : Rect S1x40x3x128 := Rect.unit (s := S1x40x3x128) ![0, 0, 2, 0] S1x40x1x128.size inb_S1x40x3x128_S1x40x1x128_0_0_2_0
abbrev whole1 : Rect S1x40x16384 := Rect.unit (s := S1x40x16384) ![0, 0, 0] S1x40x16384.size inb_S1x40x16384_S1x40x16384_0_0_0

/-- What the body leaves in the output's staging buffer, from the input block `X`: its one store, over the whole
    buffer, of the scaled sum of the rows' outer products. -/
def stored1 (X : Vec F S1x40x3x128 .f32) : Vec F S1x40x16384 .f32 :=
  View.canon [⟨whole1, k1_pay1 (View.ld X comp1_0) (View.ld X comp1_1) (View.ld X comp1_2)⟩]

/-- The one store covers the buffer. -/
theorem covers1 (p0 : Vec F S1x40x16384 .f32) (y : S1x40x16384.Idx) :
    ∃ pc ∈ ([⟨whole1, p0⟩] : List (View.Piece (Elt F) S1x40x16384 .f32)), y ∈ pc.1.set :=
  View.cover_of_tiled [⟨whole1, p0⟩] S1x40x16384.size (by rfl) y

/-! ## The body's triple -/

set_option maxHeartbeats 1000000 in
/-- On whole staging memrefs, the input's at contents `X` and the output's at anything, the body runs to a continuation
    that holds the input's as it was and the output's at `stored1 X`. -/
theorem body1_run (c : Dev nD) (E : Set ℕ) (i : grid1.Coords) (a : Memref sig .tc .vmem S1x40x3x128 .f32) (ha : a.IsWhole)
    (o : Memref sig .tc .vmem S1x40x16384 .f32) (ho : o.IsWhole) (X : Vec F S1x40x3x128 .f32) (K : PUnit → sProp 𝕄) :
    iprop(owns (c : Thread nD τ) a fullShare X ∗ (∃ d, owns (c : Thread nD τ) o fullShare d)
        ∗ (iprop(owns (c : Thread nD τ) a fullShare X ∗ owns (c : Thread nD τ) o fullShare (stored1 X)) -∗ K ⟨⟩))
      ⊢ wp frame (wpE (defs₀ (F := F)) Variants.none c none) E (cc1_kernel i a ha o ho) K := by
  simp only [cc1_kernel_eq_skeleton]; unfold cc1_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers1 _)

/-! ## The pipeline's proof data and the body obligation -/

/-- Region 1's proof data on core `c`: the arrays as entered; after the body at point `t` the input's buffer at its
    block and the output's at `stored1` of it; the class-A invariant; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => stored1 (blk1 V c 0 t)
  Φ _ := Pipeline.ΦA spec1 c
  q _ := fullShare
  owed _ := 0

theorem arr1 (c : Dev nD) (w : Fin cfg1.W) : (dat1 V c).A w = V c (Pipeline.arrRef spec1 w) := by
  dsimp only [dat1]
theorem after1_in (c : Dev nD) (t : Fin cfg1.N) : (dat1 V c).after 0 t = blk1 V c 0 t := by dsimp only [dat1]
theorem after1_out (c : Dev nD) (t : Fin cfg1.N) : (dat1 V c).after 1 t = stored1 (blk1 V c 0 t) := by dsimp only [dat1]
theorem before1_in (c : Dev nD) (t : Fin cfg1.N) (d) : (dat1 V c).before 0 t d = blk1 V c 0 t :=
  input1_of V (dat1 V c) (arr1 V c 0) (after1_in V c) t d

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the body's triple applies; the invariant and the
    core's dues pass through unread. -/
theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [before1_in]
  rw [show (dat1 V c).Φ t.succ = (dat1 V c).Φ t.castSucc from rfl,
    show (dat1 V c).owesAt () t.succ = (dat1 V c).owesAt () t.castSucc from rfl,
    after1_in, after1_out]
  iintro ⟨HΦ, Ho, ⟨%d0, H0⟩, ⟨%d1, H1⟩⟩
  iapply (body1_run c Set.univ _ _ _ _ _ (blk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem obligation1 (c : Dev nD) : BodyObligation (dat1 (F := F) V c) (defs₀ (F := F)) Variants.none () Set.univ := fun t => by
  rw [bigSep_W1, bigSep_W1]
  exact point1 V c t

end Cert.KernelIdeal.Reg

end
-- ==== Proof.KernelIdeal.Region2.lean ====
/-
  Region 2 of the program (the pallas_call for angular order l = 2, 5 components), at the contents `V` the
  region is entered with, for any float instance.

  At a grid point the body reads its input block (40 samples × 5 × 128) one component row at a time, forms the sum
  of the rows' outer products scaled by the order's constant, and stores it over the whole output block (40 × 16384) in
  one store. So after the body the input's staging buffer is as it was, and the output's is the one stored piece
  (`stored2`: the skeleton's payload of the 5 row loads). The pipeline's proof data says exactly that, keeps the
  class-A invariant (the scoped rest and the generator register, untouched) and owes nothing; the body obligation is the
  body's triple, run once symbolically, at every point.
-/
import proofs.«134989_j86088324481926_1_alg».proof.Proof.Gen.KernelIdeal.Launch
import proofs.«134989_j86088324481926_1_alg».proof.Proof.Gen.KernelIdeal.Skeleton
import proofs.«134989_j86088324481926_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a grid point sees of the arrays -/

/-- Window `w`'s block at grid point `t`: the array, as the region finds it, read through the block's view. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds the point's block when the body starts, for any proof data over `V`'s
    array whose body leaves the block where it found it: the window is fetched whole at every point. -/
theorem input2_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-! ## The body's accesses: 5 component rows of the input block, the whole output block -/

abbrev comp2_0 : Rect S1x40x5x128 := Rect.unit (s := S1x40x5x128) ![0, 0, 0, 0] S1x40x1x128.size inb_S1x40x5x128_S1x40x1x128_0_0_0_0
abbrev comp2_1 : Rect S1x40x5x128 := Rect.unit (s := S1x40x5x128) ![0, 0, 1, 0] S1x40x1x128.size inb_S1x40x5x128_S1x40x1x128_0_0_1_0
abbrev comp2_2 : Rect S1x40x5x128 := Rect.unit (s := S1x40x5x128) ![0, 0, 2, 0] S1x40x1x128.size inb_S1x40x5x128_S1x40x1x128_0_0_2_0
abbrev comp2_3 : Rect S1x40x5x128 := Rect.unit (s := S1x40x5x128) ![0, 0, 3, 0] S1x40x1x128.size inb_S1x40x5x128_S1x40x1x128_0_0_3_0
abbrev comp2_4 : Rect S1x40x5x128 := Rect.unit (s := S1x40x5x128) ![0, 0, 4, 0] S1x40x1x128.size inb_S1x40x5x128_S1x40x1x128_0_0_4_0
abbrev whole2 : Rect S1x40x16384 := Rect.unit (s := S1x40x16384) ![0, 0, 0] S1x40x16384.size inb_S1x40x16384_S1x40x16384_0_0_0

/-- What the body leaves in the output's staging buffer, from the input block `X`: its one store, over the whole
    buffer, of the scaled sum of the rows' outer products. -/
def stored2 (X : Vec F S1x40x5x128 .f32) : Vec F S1x40x16384 .f32 :=
  View.canon [⟨whole2, k2_pay1 (k2_pay2 (View.ld X comp2_0) (View.ld X comp2_1) (View.ld X comp2_2) (View.ld X comp2_3)) (k2_pay3 (View.ld X comp2_4))⟩]

/-- The one store covers the buffer. -/
theorem covers2 (p0 : Vec F S1x40x16384 .f32) (y : S1x40x16384.Idx) :
    ∃ pc ∈ ([⟨whole2, p0⟩] : List (View.Piece (Elt F) S1x40x16384 .f32)), y ∈ pc.1.set :=
  View.cover_of_tiled [⟨whole2, p0⟩] S1x40x16384.size (by rfl) y

/-! ## The body's triple -/

set_option maxHeartbeats 1000000 in
/-- On whole staging memrefs, the input's at contents `X` and the output's at anything, the body runs to a continuation
    that holds the input's as it was and the output's at `stored2 X`. -/
theorem body2_run (c : Dev nD) (E : Set ℕ) (i : grid2.Coords) (a : Memref sig .tc .vmem S1x40x5x128 .f32) (ha : a.IsWhole)
    (o : Memref sig .tc .vmem S1x40x16384 .f32) (ho : o.IsWhole) (X : Vec F S1x40x5x128 .f32) (K : PUnit → sProp 𝕄) :
    iprop(owns (c : Thread nD τ) a fullShare X ∗ (∃ d, owns (c : Thread nD τ) o fullShare d)
        ∗ (iprop(owns (c : Thread nD τ) a fullShare X ∗ owns (c : Thread nD τ) o fullShare (stored2 X)) -∗ K ⟨⟩))
      ⊢ wp frame (wpE (defs₀ (F := F)) Variants.none c none) E (cc2_kernel i a ha o ho) K := by
  simp only [cc2_kernel_eq_skeleton]; unfold cc2_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers2 _)

/-! ## The pipeline's proof data and the body obligation -/

/-- Region 2's proof data on core `c`: the arrays as entered; after the body at point `t` the input's buffer at its
    block and the output's at `stored2` of it; the class-A invariant; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => stored2 (blk2 V c 0 t)
  Φ _ := Pipeline.ΦA spec2 c
  q _ := fullShare
  owed _ := 0

theorem arr2 (c : Dev nD) (w : Fin cfg2.W) : (dat2 V c).A w = V c (Pipeline.arrRef spec2 w) := by
  dsimp only [dat2]
theorem after2_in (c : Dev nD) (t : Fin cfg2.N) : (dat2 V c).after 0 t = blk2 V c 0 t := by dsimp only [dat2]
theorem after2_out (c : Dev nD) (t : Fin cfg2.N) : (dat2 V c).after 1 t = stored2 (blk2 V c 0 t) := by dsimp only [dat2]
theorem before2_in (c : Dev nD) (t : Fin cfg2.N) (d) : (dat2 V c).before 0 t d = blk2 V c 0 t :=
  input2_of V (dat2 V c) (arr2 V c 0) (after2_in V c) t d

/-- What the body is called with at point `t`, the windows one by one, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's memref holds its block, so the body's triple applies; the invariant and the
    core's dues pass through unread. -/
theorem point2 (c : Dev nD) (t : Fin cfg2.N) :
    pre2 V c t ⊢ wp frame (wpE (defs₀ (F := F)) Variants.none c none) Set.univ (bodyAt2 t) (fun _ => post2 V c t) := by
  unfold pre2 post2 bodyAt2
  simp only [before2_in]
  rw [show (dat2 V c).Φ t.succ = (dat2 V c).Φ t.castSucc from rfl,
    show (dat2 V c).owesAt () t.succ = (dat2 V c).owesAt () t.castSucc from rfl,
    after2_in, after2_out]
  iintro ⟨HΦ, Ho, ⟨%d0, H0⟩, ⟨%d1, H1⟩⟩
  iapply (body2_run c Set.univ _ _ _ _ _ (blk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem obligation2 (c : Dev nD) : BodyObligation (dat2 (F := F) V c) (defs₀ (F := F)) Variants.none () Set.univ := fun t => by
  rw [bigSep_W2, bigSep_W2]
  exact point2 V c t

end Cert.KernelIdeal.Reg

end
-- ==== Proof.KernelIdeal.Region3.lean ====
/-
  Region 3 of the program (the pallas_call for angular order l = 3, 7 components), at the contents `V` the
  region is entered with, for any float instance.

  At a grid point the body reads its input block (40 samples × 7 × 128) one component row at a time, forms the sum
  of the rows' outer products scaled by the order's constant, and stores it over the whole output block (40 × 16384) in
  one store. So after the body the input's staging buffer is as it was, and the output's is the one stored piece
  (`stored3`: the skeleton's payload of the 7 row loads). The pipeline's proof data says exactly that, keeps the
  class-A invariant (the scoped rest and the generator register, untouched) and owes nothing; the body obligation is the
  body's triple, run once symbolically, at every point.
-/
import proofs.«134989_j86088324481926_1_alg».proof.Proof.Gen.KernelIdeal.Launch
import proofs.«134989_j86088324481926_1_alg».proof.Proof.Gen.KernelIdeal.Skeleton
import proofs.«134989_j86088324481926_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a grid point sees of the arrays -/

/-- Window `w`'s block at grid point `t`: the array, as the region finds it, read through the block's view. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's staging buffer holds the point's block when the body starts, for any proof data over `V`'s
    array whose body leaves the block where it found it: the window is fetched whole at every point. -/
theorem input3_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-! ## The body's accesses: 7 component rows of the input block, the whole output block -/

abbrev comp3_0 : Rect S1x40x7x128 := Rect.unit (s := S1x40x7x128) ![0, 0, 0, 0] S1x40x1x128.size inb_S1x40x7x128_S1x40x1x128_0_0_0_0
abbrev comp3_1 : Rect S1x40x7x128 := Rect.unit (s := S1x40x7x128) ![0, 0, 1, 0] S1x40x1x128.size inb_S1x40x7x128_S1x40x1x128_0_0_1_0
abbrev comp3_2 : Rect S1x40x7x128 := Rect.unit (s := S1x40x7x128) ![0, 0, 2, 0] S1x40x1x128.size inb_S1x40x7x128_S1x40x1x128_0_0_2_0
abbrev comp3_3 : Rect S1x40x7x128 := Rect.unit (s := S1x40x7x128) ![0, 0, 3, 0] S1x40x1x128.size inb_S1x40x7x128_S1x40x1x128_0_0_3_0
abbrev comp3_4 : Rect S1x40x7x128 := Rect.unit (s := S1x40x7x128) ![0, 0, 4, 0] S1x40x1x128.size inb_S1x40x7x128_S1x40x1x128_0_0_4_0
abbrev comp3_5 : Rect S1x40x7x128 := Rect.unit (s := S1x40x7x128) ![0, 0, 5, 0] S1x40x1x128.size inb_S1x40x7x128_S1x40x1x128_0_0_5_0
abbrev comp3_6 : Rect S1x40x7x128 := Rect.unit (s := S1x40x7x128) ![0, 0, 6, 0] S1x40x1x128.size inb_S1x40x7x128_S1x40x1x128_0_0_6_0
abbrev whole3 : Rect S1x40x16384 := Rect.unit (s := S1x40x16384) ![0, 0, 0] S1x40x16384.size inb_S1x40x16384_S1x40x16384_0_0_0

/-- What the body leaves in the output's staging buffer, from the input block `X`: its one store, over the whole
    buffer, of the scaled sum of the rows' outer products. -/
def stored3 (X : Vec F S1x40x7x128 .f32) : Vec F S1x40x16384 .f32 :=
  View.canon [⟨whole3, k3_pay1 (k3_pay2 (View.ld X comp3_0) (View.ld X comp3_1) (View.ld X comp3_2) (View.ld X comp3_3)) (k3_pay3 (View.ld X comp3_4)) (View.ld X comp3_5) (View.ld X comp3_6)⟩]

/-- The one store covers the buffer. -/
theorem covers3 (p0 : Vec F S1x40x16384 .f32) (y : S1x40x16384.Idx) :
    ∃ pc ∈ ([⟨whole3, p0⟩] : List (View.Piece (Elt F) S1x40x16384 .f32)), y ∈ pc.1.set :=
  View.cover_of_tiled [⟨whole3, p0⟩] S1x40x16384.size (by rfl) y

/-! ## The body's triple -/

set_option maxHeartbeats 1000000 in
/-- On whole staging memrefs, the input's at contents `X` and the output's at anything, the body runs to a continuation
    that holds the input's as it was and the output's at `stored3 X`. -/
theorem body3_run (c : Dev nD) (E : Set ℕ) (i : grid3.Coords) (a : Memref sig .tc .vmem S1x40x7x128 .f32) (ha : a.IsWhole)
    (o : Memref sig .tc .vmem S1x40x16384 .f32) (ho : o.IsWhole) (X : Vec F S1x40x7x128 .f32) (K : PUnit → sProp 𝕄) :
    iprop(owns (c : Thread nD τ) a fullShare X ∗ (∃ d, owns (c : Thread nD τ) o fullShare d)
        ∗ (iprop(owns (c : Thread nD τ) a fullShare X ∗ owns (c : Thread nD τ) o fullShare (stored3 X)) -∗ K ⟨⟩))
      ⊢ wp frame (wpE (defs₀ (F := F)) Variants.none c none) E (cc3_kernel i a ha o ho) K := by
  simp only [cc3_kernel_eq_skeleton]; unfold cc3_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers3 _)

/-! ## The pipeline's proof data and the body obligation -/

/-- Region 3's proof data on core `c`: the arrays as entered; after the body at point `t` the input's buffer at its
    block and the output's at `stored3` of it; the class-A invariant; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => stored3 (blk3 V c 0 t)
  Φ _ := Pipeline.ΦA spec3 c
  q _ := fullShare
  owed _ := 0

theorem arr3 (c : Dev nD) (w : Fin cfg3.W) : (dat3 V c).A w = V c (Pipeline.arrRef spec3 w) := by
  dsimp only [dat3]
theorem after3_in (c : Dev nD) (t : Fin cfg3.N) : (dat3 V c).after 0 t = blk3 V c 0 t := by dsimp only [dat3]
theorem after3_out (c : Dev nD) (t : Fin cfg3.N) : (dat3 V c).after 1 t = stored3 (blk3 V c 0 t) := by dsimp only [dat3]
theorem before3_in (c : Dev nD) (t : Fin cfg3.N) (d) : (dat3 V c).before 0 t d = blk3 V c 0 t :=
  input3_of V (dat3 V c) (arr3 V c 0) (after3_in V c) t d

/-- What the body is called with at point `t`, the windows one by one, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's memref holds its block, so the body's triple applies; the invariant and the
    core's dues pass through unread. -/
theorem point3 (c : Dev nD) (t : Fin cfg3.N) :
    pre3 V c t ⊢ wp frame (wpE (defs₀ (F := F)) Variants.none c none) Set.univ (bodyAt3 t) (fun _ => post3 V c t) := by
  unfold pre3 post3 bodyAt3
  simp only [before3_in]
  rw [show (dat3 V c).Φ t.succ = (dat3 V c).Φ t.castSucc from rfl,
    show (dat3 V c).owesAt () t.succ = (dat3 V c).owesAt () t.castSucc from rfl,
    after3_in, after3_out]
  iintro ⟨HΦ, Ho, ⟨%d0, H0⟩, ⟨%d1, H1⟩⟩
  iapply (body3_run c Set.univ _ _ _ _ _ (blk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem obligation3 (c : Dev nD) : BodyObligation (dat3 (F := F) V c) (defs₀ (F := F)) Variants.none () Set.univ := fun t => by
  rw [bigSep_W3, bigSep_W3]
  exact point3 V c t

end Cert.KernelIdeal.Reg

end
-- ==== Proof.KernelIdeal.Run.lean ====
/-
  The run of the whole program: four kernel regions one after the other, then the host's concatenation.

  Between two items of @main a core holds every unscoped buffer whole at known contents. The contents at each
  boundary are a fold from the launch memory: a region changes only its own two arrays — the input stays as entered,
  the output ends at what the pipeline's write-backs leave, folded over the grid (`Dat.arrAt`) — and the host tail
  applies its one operation. Each region is entered from the contents the item before it left; beside the buffers ride
  the core's generator register (which the class-A invariant takes in and gives back) and the fact that the core owes
  nothing. The launch theorem for a list of segments then says: every weakly fair execution terminates, nothing faults,
  and at the end every unscoped buffer holds the last boundary's contents. From that one post both the frame (an argument
  array is written by no item) and the value of the result (the concatenation of the four regions' outputs) are read off.
-/
import proofs.«134989_j86088324481926_1_alg».proof.Proof.KernelIdeal.Region0
import proofs.«134989_j86088324481926_1_alg».proof.Proof.KernelIdeal.Region1
import proofs.«134989_j86088324481926_1_alg».proof.Proof.KernelIdeal.Region2
import proofs.«134989_j86088324481926_1_alg».proof.Proof.KernelIdeal.Region3
import Idealize.ShloMosaic.Lib.Pipeline.RegionsLoop
import Idealize.ShloMosaic.Lib.Pipeline.FrameSuffix

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev B0 : Dev nD → Valuation τ sig (Elt F) := fun c b => m ((c : Dev nD), b)
/-- The same read at the TensorCore's references: what region 0 is entered with. -/
abbrev E0 : (c : Dev nD) → (b : Ref sig .tc) → Buf (Elt F) ((c : Thread nD τ).loc b) := fun c b => B0 m c b

/-- After region 0: its arrays at what the pipeline leaves (the input as entered, the output's write-backs folded over the
    grid), every other buffer as region 0 found it. -/
def B1 (c : Dev nD) : Valuation τ sig (Elt F) :=
  Pipeline.withArrays spec0 c (B0 m c) fun w => (dat0 (E0 m) c).arrAt w cfg0.N
theorem B1_arr (c : Dev nD) (w : Fin cfg0.W) :
    B1 m c (Proc.devRef .tc (Pipeline.arrRef spec0 w)) = (dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
/-- The same read at the TensorCore's references: what region 1 is entered with. -/
abbrev E1 : (c : Dev nD) → (b : Ref sig .tc) → Buf (Elt F) ((c : Thread nD τ).loc b) := fun c b => B1 m c b
theorem exit0 (c : Dev nD) (w : Fin cfg0.W) : (dat0 (E0 m) c).arrAt w cfg0.N = E1 m c (Pipeline.arrRef spec0 w) :=
  (B1_arr m c w).symm
theorem rest0 (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After region 1: its arrays at what the pipeline leaves (the input as entered, the output's write-backs folded over the
    grid), every other buffer as region 1 found it. -/
def B2 (c : Dev nD) : Valuation τ sig (Elt F) :=
  Pipeline.withArrays spec1 c (B1 m c) fun w => (dat1 (E1 m) c).arrAt w cfg1.N
theorem B2_arr (c : Dev nD) (w : Fin cfg1.W) :
    B2 m c (Proc.devRef .tc (Pipeline.arrRef spec1 w)) = (dat1 (E1 m) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
/-- The same read at the TensorCore's references: what region 2 is entered with. -/
abbrev E2 : (c : Dev nD) → (b : Ref sig .tc) → Buf (Elt F) ((c : Thread nD τ).loc b) := fun c b => B2 m c b
theorem exit1 (c : Dev nD) (w : Fin cfg1.W) : (dat1 (E1 m) c).arrAt w cfg1.N = E2 m c (Pipeline.arrRef spec1 w) :=
  (B2_arr m c w).symm
theorem rest1 (c : Dev nD) : ∀ b, b ∉ Finset.univ.image (Pipeline.arrRef spec1) → E2 m c b = E1 m c b :=
  fun b hb => B2_of_ne m c b fun w e => hb (Finset.mem_image.mpr ⟨w, Finset.mem_univ _, e⟩)

/-- After region 2: its arrays at what the pipeline leaves (the input as entered, the output's write-backs folded over the
    grid), every other buffer as region 2 found it. -/
def B3 (c : Dev nD) : Valuation τ sig (Elt F) :=
  Pipeline.withArrays spec2 c (B2 m c) fun w => (dat2 (E2 m) c).arrAt w cfg2.N
theorem B3_arr (c : Dev nD) (w : Fin cfg2.W) :
    B3 m c (Proc.devRef .tc (Pipeline.arrRef spec2 w)) = (dat2 (E2 m) c).arrAt w cfg2.N := by
  unfold B3; exact Pipeline.withArrays_arr spec2 launch2.win.arr_inj c _ _ w
theorem B3_of_ne (c : Dev nD) (b : Ref sig .tc) (hb : ∀ w, Pipeline.arrRef spec2 w ≠ b) :
    B3 m c (Proc.devRef .tc b) = B2 m c (Proc.devRef .tc b) := by
  unfold B3; exact Pipeline.withArrays_of_ne spec2 c _ _ b hb
/-- The same read at the TensorCore's references: what region 3 is entered with. -/
abbrev E3 : (c : Dev nD) → (b : Ref sig .tc) → Buf (Elt F) ((c : Thread nD τ).loc b) := fun c b => B3 m c b
theorem exit2 (c : Dev nD) (w : Fin cfg2.W) : (dat2 (E2 m) c).arrAt w cfg2.N = E3 m c (Pipeline.arrRef spec2 w) :=
  (B3_arr m c w).symm
theorem rest2 (c : Dev nD) : ∀ b, b ∉ Finset.univ.image (Pipeline.arrRef spec2) → E3 m c b = E2 m c b :=
  fun b hb => B3_of_ne m c b fun w e => hb (Finset.mem_image.mpr ⟨w, Finset.mem_univ _, e⟩)

/-- After region 3: its arrays at what the pipeline leaves (the input as entered, the output's write-backs folded over the
    grid), every other buffer as region 3 found it. -/
def B4 (c : Dev nD) : Valuation τ sig (Elt F) :=
  Pipeline.withArrays spec3 c (B3 m c) fun w => (dat3 (E3 m) c).arrAt w cfg3.N
theorem B4_arr (c : Dev nD) (w : Fin cfg3.W) :
    B4 m c (Proc.devRef .tc (Pipeline.arrRef spec3 w)) = (dat3 (E3 m) c).arrAt w cfg3.N := by
  unfold B4; exact Pipeline.withArrays_arr spec3 launch3.win.arr_inj c _ _ w
theorem B4_of_ne (c : Dev nD) (b : Ref sig .tc) (hb : ∀ w, Pipeline.arrRef spec3 w ≠ b) :
    B4 m c (Proc.devRef .tc b) = B3 m c (Proc.devRef .tc b) := by
  unfold B4; exact Pipeline.withArrays_of_ne spec3 c _ _ b hb
/-- The same read at the TensorCore's references: what the host tail reads. -/
abbrev E4 : (c : Dev nD) → (b : Ref sig .tc) → Buf (Elt F) ((c : Thread nD τ).loc b) := fun c b => B4 m c b
theorem exit3 (c : Dev nD) (w : Fin cfg3.W) : (dat3 (E3 m) c).arrAt w cfg3.N = E4 m c (Pipeline.arrRef spec3 w) :=
  (B4_arr m c w).symm
theorem rest3 (c : Dev nD) : ∀ b, b ∉ Finset.univ.image (Pipeline.arrRef spec3) → E4 m c b = E3 m c b :=
  fun b hb => B4_of_ne m c b fun w e => hb (Finset.mem_image.mpr ⟨w, Finset.mem_univ _, e⟩)

/-- After the host tail: the concatenation written into the result. -/
abbrev B5 : Dev nD → Valuation τ sig (Elt F) := fun c => StableHlo.after hostOps4 (B4 m c)

/-! ## What the last boundary holds -/

/-- `main_arg0` reaches the end as launched: the host tail does not write it, region 0 only reads it, no other region touches it. -/
theorem B5_main_arg0 (c : Dev nD) : B5 m c (Proc.devRef .tc main_arg0) = m ((c : Thread nD τ).loc main_arg0) :=
  (show StableHlo.after hostOps4 (B4 m c) (Proc.devRef .tc main_arg0) = B4 m c (Proc.devRef .tc main_arg0) from by after_results <;> rfl).trans <|
    (B4_of_ne m c main_arg0 (by decide)).trans <| (B3_of_ne m c main_arg0 (by decide)).trans <| (B2_of_ne m c main_arg0 (by decide)).trans <| (B1_arr m c 0).trans <| ((dat0 (E0 m) c).arrAt_in 0 rfl _).trans <| (arr0 (E0 m) c 0).trans rfl
/-- Region 0 is entered with its input as launched. -/
theorem E0_main_arg0 (c : Dev nD) : E0 m c main_arg0 = m ((c : Thread nD τ).loc main_arg0) := rfl
/-- `main_arg1` reaches the end as launched: the host tail does not write it, region 1 only reads it, no other region touches it. -/
theorem B5_main_arg1 (c : Dev nD) : B5 m c (Proc.devRef .tc main_arg1) = m ((c : Thread nD τ).loc main_arg1) :=
  (show StableHlo.after hostOps4 (B4 m c) (Proc.devRef .tc main_arg1) = B4 m c (Proc.devRef .tc main_arg1) from by after_results <;> rfl).trans <|
    (B4_of_ne m c main_arg1 (by decide)).trans <| (B3_of_ne m c main_arg1 (by decide)).trans <| (B2_arr m c 0).trans <| ((dat1 (E1 m) c).arrAt_in 0 rfl _).trans <| (arr1 (E1 m) c 0).trans ((B1_of_ne m c main_arg1 (by decide)))
/-- Region 1 is entered with its input as launched. -/
theorem E1_main_arg1 (c : Dev nD) : E1 m c main_arg1 = m ((c : Thread nD τ).loc main_arg1) := (B1_of_ne m c main_arg1 (by decide))
/-- `main_arg2` reaches the end as launched: the host tail does not write it, region 2 only reads it, no other region touches it. -/
theorem B5_main_arg2 (c : Dev nD) : B5 m c (Proc.devRef .tc main_arg2) = m ((c : Thread nD τ).loc main_arg2) :=
  (show StableHlo.after hostOps4 (B4 m c) (Proc.devRef .tc main_arg2) = B4 m c (Proc.devRef .tc main_arg2) from by after_results <;> rfl).trans <|
    (B4_of_ne m c main_arg2 (by decide)).trans <| (B3_arr m c 0).trans <| ((dat2 (E2 m) c).arrAt_in 0 rfl _).trans <| (arr2 (E2 m) c 0).trans ((B2_of_ne m c main_arg2 (by decide)).trans (B1_of_ne m c main_arg2 (by decide)))
/-- Region 2 is entered with its input as launched. -/
theorem E2_main_arg2 (c : Dev nD) : E2 m c main_arg2 = m ((c : Thread nD τ).loc main_arg2) := (B2_of_ne m c main_arg2 (by decide)).trans (B1_of_ne m c main_arg2 (by decide))
/-- `main_arg3` reaches the end as launched: the host tail does not write it, region 3 only reads it, no other region touches it. -/
theorem B5_main_arg3 (c : Dev nD) : B5 m c (Proc.devRef .tc main_arg3) = m ((c : Thread nD τ).loc main_arg3) :=
  (show StableHlo.after hostOps4 (B4 m c) (Proc.devRef .tc main_arg3) = B4 m c (Proc.devRef .tc main_arg3) from by after_results <;> rfl).trans <|
    (B4_arr m c 0).trans <| ((dat3 (E3 m) c).arrAt_in 0 rfl _).trans <| (arr3 (E3 m) c 0).trans (((B3_of_ne m c main_arg3 (by decide)).trans (B2_of_ne m c main_arg3 (by decide))).trans (B1_of_ne m c main_arg3 (by decide)))
/-- Region 3 is entered with its input as launched. -/
theorem E3_main_arg3 (c : Dev nD) : E3 m c main_arg3 = m ((c : Thread nD τ).loc main_arg3) := ((B3_of_ne m c main_arg3 (by decide)).trans (B2_of_ne m c main_arg3 (by decide))).trans (B1_of_ne m c main_arg3 (by decide))

/-- Each region's output array keeps, to the end of the regions, what that region's write-backs left. -/
theorem B4_main_v0 (c : Dev nD) : B4 m c (Proc.devRef .tc main_v0) = (dat0 (E0 m) c).arrAt 1 cfg0.N :=
  (B4_of_ne m c main_v0 (by decide)).trans <| (B3_of_ne m c main_v0 (by decide)).trans <| (B2_of_ne m c main_v0 (by decide)).trans <| B1_arr m c 1
theorem B4_main_v1 (c : Dev nD) : B4 m c (Proc.devRef .tc main_v1) = (dat1 (E1 m) c).arrAt 1 cfg1.N :=
  (B4_of_ne m c main_v1 (by decide)).trans <| (B3_of_ne m c main_v1 (by decide)).trans <| B2_arr m c 1
theorem B4_main_v2 (c : Dev nD) : B4 m c (Proc.devRef .tc main_v2) = (dat2 (E2 m) c).arrAt 1 cfg2.N :=
  (B4_of_ne m c main_v2 (by decide)).trans <| B3_arr m c 1
theorem B4_main_v3 (c : Dev nD) : B4 m c (Proc.devRef .tc main_v3) = (dat3 (E3 m) c).arrAt 1 cfg3.N :=
  B4_arr m c 1

/-- The result is the concatenation, along the last axis, of the four regions' output arrays. -/
theorem B5_result (c : Dev nD) : B5 m c (Proc.devRef .tc main_v4)
    = concatenate S2x1000x65536 2 [⟨S2x1000x16384, (dat0 (E0 m) c).arrAt 1 cfg0.N⟩, ⟨S2x1000x16384, (dat1 (E1 m) c).arrAt 1 cfg1.N⟩,
        ⟨S2x1000x16384, (dat2 (E2 m) c).arrAt 1 cfg2.N⟩, ⟨S2x1000x16384, (dat3 (E3 m) c).arrAt 1 cfg3.N⟩]
      concatenates_S2x1000x16384_S2x1000x16384_S2x1000x16384_S2x1000x16384_S2x1000x65536_d2 := by
  rw [← B4_main_v0 m c, ← B4_main_v1 m c, ← B4_main_v2 m c, ← B4_main_v3 m c]
  show StableHlo.after hostOps4 (B4 m c) (Proc.devRef .tc main_v4) = _
  after_results <;> rfl

/-! ## The proof-data family and what rides beside the buffers -/

/-- No pallas_call has a prefetched table. -/
abbrev noTables : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) noTables p) c
  | ⟨0, _⟩ => fun c => dat0 (E0 m) c
  | ⟨1, _⟩ => fun c => dat1 (E1 m) c
  | ⟨2, _⟩ => fun c => dat2 (E2 m) c
  | ⟨3, _⟩ => fun c => dat3 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev rides (c : Dev nD) : sProp 𝕄 := iprop((∃ r, prngReg c r) ∗ ∃ W, owes (c : Thread nD τ) (0 : CellTallies nD τ sig Unit) W)

theorem hostOps4_alloc : (hostOps4 : List (HloOp τ sig (Elt F))).Forall fun op => op.fresh = ∅ := by
  simp only [List.Forall]; repeat' constructor
/-- The host tail as a segment over the unscoped references, from the contents region 3 left. -/
abbrev tail : Pipeline.HostSeg (Name := ℕ) (U := UR sig nD τ) (pcfgs (F := F)) defs₀ 𝒱₀ L lv :=
  Pipeline.HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_alloc) op h) (B4 m) rides
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may unfold
-- plain definitions in a metavariable's type
set_option backward.isDefEq.respectTransparency.types false in
/-- Region 0 as a segment: entered with every unscoped buffer at `B0`, left with them at `B1`. Its two arrays are
    split out of the unscoped buffers at entry and put back at their exit contents; the generator register goes into the
    class-A invariant and comes back; nothing is owed; the kernel has no semaphore of its own. -/
def reg0 : Pipeline.RegionSeg (pcfgs (F := F)) noTables (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (E0 m) c).loose
  hwaits := Pipeline.hwaits_of_owed_zero _ _ _ _ L lv 0 fun _ _ => rfl
  pre c := iprop(StableHlo.held (c : Thread nD τ) (Pipeline.ucRefs τ sig) (B0 m c) ∗ rides c)
  post c := iprop(StableHlo.held (c : Thread nD τ) (Pipeline.ucRefs τ sig) (B1 m c) ∗ rides c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment: entered with every unscoped buffer at `B1`, left with them at `B2`. Its two arrays are
    split out of the unscoped buffers at entry and put back at their exit contents; the generator register goes into the
    class-A invariant and comes back; nothing is owed; the kernel has no semaphore of its own. -/
def reg1 : Pipeline.RegionSeg (pcfgs (F := F)) noTables (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (E1 m) c).loose
  hwaits := Pipeline.hwaits_of_owed_zero _ _ _ _ L lv 1 fun _ _ => rfl
  pre c := iprop(StableHlo.held (c : Thread nD τ) (Pipeline.ucRefs τ sig) (B1 m c) ∗ rides c)
  post c := iprop(StableHlo.held (c : Thread nD τ) (Pipeline.ucRefs τ sig) (B2 m c) ∗ rides c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (exit1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 as a segment: entered with every unscoped buffer at `B2`, left with them at `B3`. Its two arrays are
    split out of the unscoped buffers at entry and put back at their exit contents; the generator register goes into the
    class-A invariant and comes back; nothing is owed; the kernel has no semaphore of its own. -/
def reg2 : Pipeline.RegionSeg (pcfgs (F := F)) noTables (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (E2 m) c).loose
  hwaits := Pipeline.hwaits_of_owed_zero _ _ _ _ L lv 2 fun _ _ => rfl
  pre c := iprop(StableHlo.held (c : Thread nD τ) (Pipeline.ucRefs τ sig) (B2 m c) ∗ rides c)
  post c := iprop(StableHlo.held (c : Thread nD τ) (Pipeline.ucRefs τ sig) (B3 m c) ∗ rides c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) noTables (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (exit2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 as a segment: entered with every unscoped buffer at `B3`, left with them at `B4`. Its two arrays are
    split out of the unscoped buffers at entry and put back at their exit contents; the generator register goes into the
    class-A invariant and comes back; nothing is owed; the kernel has no semaphore of its own. -/
def reg3 : Pipeline.RegionSeg (pcfgs (F := F)) noTables (pdats m) () defs₀ 𝒱₀ L lv 3 where
  win := launch3.win.to₀
  block_pos := launch3.block_pos
  stage_whole := launch3.stage_whole
  K := PEmpty
  osem k := k.elim
  ho := Pipeline.OwnSemFacts.none _
  hbody c := (obligation3 (E3 m) c).loose
  hwaits := Pipeline.hwaits_of_owed_zero _ _ _ _ L lv 3 fun _ _ => rfl
  pre c := iprop(StableHlo.held (c : Thread nD τ) (Pipeline.ucRefs τ sig) (B3 m c) ∗ rides c)
  post c := iprop(StableHlo.held (c : Thread nD τ) (Pipeline.ucRefs τ sig) (B4 m c) ∗ rides c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) noTables (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (pdats m) ((pdats m 3 c).share_full fun _ => rfl)
      (E3 m c) (E4 m c) ((pdats m 3 c).arrAt · cfg3.N) (exit3 m c) (rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) noTables (pdats m) () defs₀ 𝒱₀ L lv) :=
  [ .region (reg0 m), .region (reg1 m), .region (reg2 m), .region (reg3 m), .host (tail m) ]
theorem main_run (c : Dev nD) : main (F := F) c = Pipeline.Seg.run (segs m) := (main_chain c).trans (by chain_rfl)

/-- The last thread state without the dues: every unscoped buffer at the final contents, the generator register at some state. -/
abbrev atEnd (c : Dev nD) : sProp 𝕄 := iprop(StableHlo.held (c : Thread nD τ) (Pipeline.ucRefs τ sig) (B5 m c) ∗ ∃ r, prngReg c r)

set_option backward.isDefEq.respectTransparency.types false in
/-- THE RUN. From any memory with zero counters every weakly fair execution of @main terminates, nothing faulting, and
    in every final state each unscoped buffer of each core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) noTables (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ rides c)) (Tₙ := atEnd m)
    (hch := ⟨fun _ => .rfl, fun _ => .rfl, fun _ => .rfl, fun _ => .rfl, fun _ => .rfl, fun c => by
      show (iprop(StableHlo.held (c : Thread nD τ) (Pipeline.ucRefs τ sig) (B5 m c) ∗ rides c) : sProp 𝕄)
        ⊢ iprop(atEnd m c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h => h)

end Cert.KernelIdeal.Reg

end
-- ==== Proof.GramSpec.lean ====
/-
  The quantity both programs compute for one angular order.

  For a sample `(s, n)` the coefficients of one order form an `M × 128` matrix `c` (`M = 2l + 1` components, 128
  features). Its scaled Gram matrix over the component axis is `g (i, j) = w · Σ_k c (k, i) · c (k, j)`, a
  `128 × 128` matrix, which both programs lay out flat: entry `(i, j)` sits at column `q = i · 128 + j` of a row
  of `16384`, so `i = q / 128` and `j = q % 128`. The scale `w` is a float literal (the same word in both
  programs), kept as its word and never evaluated.

  `gram` states this for a whole array of shape `[2, 1000, M, 128]`; `blockGram` states the same for one block
  of 40 consecutive samples (shape `[1, 40, M, 128]`), which is what one grid point of the kernel sees.
-/
import Idealize.ShloMosaic.PureOps.Ideal
import Idealize.ShloMosaic.Lib.ValueIdx

noncomputable section

namespace Cert.Gram

open Idealize.ShloMosaic Idealize.ShloMosaic.ValueIdx

/-- The row `i = q / 128` of the Gram matrix that flat column `q` belongs to. -/
abbrev hi (q : Fin 16384) : Fin 128 := ⟨q.val / 128, by have := q.isLt; omega⟩
/-- The column `j = q % 128` of the Gram matrix that flat column `q` belongs to. -/
abbrev lo (q : Fin 16384) : Fin 128 := ⟨q.val % 128, by have := q.isLt; omega⟩

/-- The scaled Gram matrix of every sample, flat: at `(s, n, q)` the scale times the sum over the components `k`
    of `x (s, n, k, q / 128) · x (s, n, k, q % 128)`. -/
def gram (M : ℕ) (w : BitVec 32) (x : (⟨4, ![2, 1000, M, 128]⟩ : Shape).Idx → EReal) :
    (⟨3, ![2, 1000, 16384]⟩ : Shape).Idx → EReal :=
  fun i => Ideal.ofBits .f32 w * ∑ k : Fin M, x (ix4 (i 0) (i 1) k (hi (i 2))) * x (ix4 (i 0) (i 1) k (lo (i 2)))

theorem gram_apply (M : ℕ) (w : BitVec 32) (x : (⟨4, ![2, 1000, M, 128]⟩ : Shape).Idx → EReal)
    (s : Fin 2) (n : Fin 1000) (q : Fin 16384) :
    gram M w x (ix3 s n q) = Ideal.ofBits .f32 w * ∑ k : Fin M, x (ix4 s n k (hi q)) * x (ix4 s n k (lo q)) := rfl

/-- The same for one block of 40 samples: at row `r` of the block and flat column `q`. -/
def blockGram (M : ℕ) (w : BitVec 32) (X : (⟨4, ![1, 40, M, 128]⟩ : Shape).Idx → EReal) (r : Fin 40) (q : Fin 16384) : EReal :=
  Ideal.ofBits .f32 w * ∑ k : Fin M, X (ix4 0 r k (hi q)) * X (ix4 0 r k (lo q))

end Cert.Gram

end
-- ==== Proof.BlockPayload.lean ====
/-
  What one grid point stores, read at one place of its block.

  Every kernel body loads the rows of one block of coefficients (one row per component k, each a 40 × 128 matrix of
  40 samples by 128 features), forms for each row its outer product over the feature axis (a 40 × 128 × 128 array:
  entry (p, i, j) is c (p, k, i) · c (p, k, j)), adds the outer products up over k, multiplies by the scale literal
  and lays the result flat: entry (p, i, j) goes to column q = i · 128 + j of row p of a 40 × 16384 block. Read at row
  r and column q this is the scale times the sum over k of c (r, k, q / 128) · c (r, k, q % 128), which is the
  specification's blockGram of the block. Only the commutativity of the product (the scale stands on the right in the
  body and on the left in the specification) and the regrouping of a finite sum are used.
-/
import proofs.«134989_j86088324481926_1_alg».proof.Proof.Gen.KernelIdeal.Skeleton
import proofs.«134989_j86088324481926_1_alg».proof.Proof.GramSpec
import Idealize.ShloMosaic.Lib.Pipeline.FrameBody
import Idealize.ShloMosaic.Lib.Pipeline.Value
import Idealize.ShloMosaic.Lib.ValueIdx
import Idealize.ShloMosaic.Lib.ValueLayout
import Idealize.ShloMosaic.PureOps.Ideal
import Mathlib.Algebra.BigOperators.Fin

noncomputable section

namespace Cert.KernelIdeal.Pay

open Idealize.ShloMosaic Idealize.ShloMosaic.ValueIdx Cert.KernelIdeal Cert.KernelIdeal.Gen Cert.Gram

/-! ## The layers -/

/-- The outer product of one loaded row with itself over the feature axis. -/
def outer (v : Vec Ideal S1x40x1x128 .f32) : FVec Ideal S40x128x128 .f32 :=
  mulf (F := Ideal)
    (broadcastTo S40x128x128
      (shapeCast S40x128x1 (shapeCast S40x128 v shapeCasts_S1x40x1x128_S40x128) shapeCasts_S40x128_S40x128x1)
      broadcasts_S40x128x1_S40x128x128)
    (broadcastTo S40x128x128
      (shapeCast S40x1x128 (shapeCast S40x128 v shapeCasts_S1x40x1x128_S40x128) shapeCasts_S40x128_S40x1x128)
      broadcasts_S40x1x128_S40x128x128)

/-- The scale applied on the right and the result laid flat. -/
def finish (w : BitVec 32) (A : FVec Ideal S40x128x128 .f32) : FVec Ideal S1x40x16384 .f32 :=
  shapeCast S1x40x16384
    (shapeCast S40x16384
      (mulf (F := Ideal) A (broadcast S40x128x128 (Scalar.ofBits (F := Ideal) .f32 w)))
      shapeCasts_S40x128x128_S40x16384)
    shapeCasts_S40x16384_S1x40x16384

/-- Entry (p, i, j) of the outer product of a row is the product of the row's entries at features i and j. -/
theorem outer_apply (v : Vec Ideal S1x40x1x128 .f32) (p : Fin 40) (i j : Fin 128) :
    outer v (ix3 p i j) = v (ix4 0 p 0 i) * v (ix4 0 p 0 j) := by
  unfold outer
  refine (mulf_apply _ _ _).trans ?_
  refine congrArg₂ (· * ·) ?_ ?_
  · -- the column copy: (p, i, j) reads (p, i, 0), which is (p, i) of the matrix, which is (0, p, 0, i) of the row
    refine (broadcastTo_apply _ _ (ix3 p i j) (ix3 p i (0 : Fin 1))
      (fun a => match a with | ⟨0, _⟩ => rfl | ⟨1, _⟩ => rfl | ⟨2, _⟩ => rfl)).trans ?_
    refine (shapeCast_apply _ _ (ix3 p i (0 : Fin 1)) (ix2 p i)
      (by rw [Shape.rowMajor_val_two, Shape.rowMajor_val_three]
          show p.val * 128 + i.val = (p.val * 128 + i.val) * 1 + 0
          omega)).trans ?_
    exact shapeCast_apply _ _ (ix2 p i) (ix4 (0 : Fin 1) p (0 : Fin 1) i)
      (by rw [Shape.rowMajor_val_four, Shape.rowMajor_val_two]
          show ((0 * 40 + p.val) * 1 + 0) * 128 + i.val = p.val * 128 + i.val
          omega)
  · -- the row copy: (p, i, j) reads (p, 0, j), which is (p, j) of the matrix, which is (0, p, 0, j) of the row
    refine (broadcastTo_apply _ _ (ix3 p i j) (ix3 p (0 : Fin 1) j)
      (fun a => match a with | ⟨0, _⟩ => rfl | ⟨1, _⟩ => rfl | ⟨2, _⟩ => rfl)).trans ?_
    refine (shapeCast_apply _ _ (ix3 p (0 : Fin 1) j) (ix2 p j)
      (by rw [Shape.rowMajor_val_two, Shape.rowMajor_val_three]
          show p.val * 128 + j.val = (p.val * 1 + 0) * 128 + j.val
          omega)).trans ?_
    exact shapeCast_apply _ _ (ix2 p j) (ix4 (0 : Fin 1) p (0 : Fin 1) j)
      (by rw [Shape.rowMajor_val_four, Shape.rowMajor_val_two]
          show ((0 * 40 + p.val) * 1 + 0) * 128 + j.val = p.val * 128 + j.val
          omega)

/-- The flat block at row r and column q is the scale times entry (r, q / 128, q % 128). -/
theorem finish_apply (w : BitVec 32) (A : FVec Ideal S40x128x128 .f32) (r : Fin 40) (q : Fin 16384) :
    finish w A (ix3 0 r q) = Ideal.ofBits .f32 w * A (ix3 r (hi q) (lo q)) := by
  have hq : q.val < 16384 := q.isLt
  unfold finish
  refine (shapeCast_apply _ _ (ix3 (0 : Fin 1) r q) (ix2 r q)
    (by rw [Shape.rowMajor_val_two, Shape.rowMajor_val_three]
        show r.val * 16384 + q.val = (0 * 40 + r.val) * 16384 + q.val
        omega)).trans ?_
  refine (shapeCast_apply _ _ (ix2 r q) (ix3 r (hi q) (lo q))
    (by rw [Shape.rowMajor_val_three, Shape.rowMajor_val_two]
        show (r.val * 128 + q.val / 128) * 128 + q.val % 128 = r.val * 16384 + q.val
        omega)).trans ?_
  show A (ix3 r (hi q) (lo q)) * Ideal.ofBits .f32 w = Ideal.ofBits .f32 w * A (ix3 r (hi q) (lo q))
  exact mul_comm _ _

/-- A load of the row at component c of a block of M components reads, at sample p and feature i, the block at
    (0, p, c, i). -/
theorem ld_row {M : ℕ} (X : Vec Ideal ⟨4, ![1, 40, M, 128]⟩ .f32) (c : ℕ) (hc : c < M)
    (inb : ∀ a, (![0, 0, c, 0] : Fin 4 → ℕ) a + S1x40x1x128.size a ≤ (⟨4, ![1, 40, M, 128]⟩ : Shape).size a)
    (p : Fin 40) (i : Fin 128) :
    View.ld X (Rect.unit (s := ⟨4, ![1, 40, M, 128]⟩) ![0, 0, c, 0] S1x40x1x128.size inb) (ix4 0 p 0 i)
      = X (ix4 0 p ⟨c, hc⟩ i) := by
  show X _ = X _
  refine congrArg X (funext fun a => Fin.ext ?_)
  match a with
  | ⟨0, _⟩ => show 0 + 1 * 0 = 0; omega
  | ⟨1, _⟩ => show 0 + 1 * p.val = p.val; omega
  | ⟨2, _⟩ => show c + 1 * 0 = c; omega
  | ⟨3, _⟩ => show 0 + 1 * i.val = i.val; omega

/-- The outer product of the row loaded at component c, at (r, q / 128, q % 128): the block's entries at component c
    and features q / 128 and q % 128, multiplied. -/
theorem outer_ld {M : ℕ} (X : Vec Ideal ⟨4, ![1, 40, M, 128]⟩ .f32) (c : ℕ) (hc : c < M)
    (inb : ∀ a, (![0, 0, c, 0] : Fin 4 → ℕ) a + S1x40x1x128.size a ≤ (⟨4, ![1, 40, M, 128]⟩ : Shape).size a)
    (r : Fin 40) (q : Fin 16384) :
    outer (View.ld X (Rect.unit (s := ⟨4, ![1, 40, M, 128]⟩) ![0, 0, c, 0] S1x40x1x128.size inb)) (ix3 r (hi q) (lo q))
      = X (ix4 0 r ⟨c, hc⟩ (hi q)) * X (ix4 0 r ⟨c, hc⟩ (lo q)) :=
  (outer_apply _ r (hi q) (lo q)).trans
    (congrArg₂ (· * ·) (ld_row X c hc inb r (hi q)) (ld_row X c hc inb r (lo q)))

/-! ## The bodies as sums of outer products -/

/-- One component: the body stores the scaled outer product of its one row. -/
theorem k0_pay1_eq (v0 : Vec Ideal S1x40x1x128 .f32) :
    k0_pay1 (F := Ideal) v0 = finish 0x3F800000#32 (outer v0) := rfl

/-- Three components: the outer products added up from the left. -/
theorem k1_pay1_eq (v0 v7 v15 : Vec Ideal S1x40x1x128 .f32) :
    k1_pay1 (F := Ideal) v0 v7 v15
      = finish 0x3F13CD3A#32 (addf (F := Ideal) (addf (F := Ideal) (outer v0) (outer v7)) (outer v15)) := rfl

/-- Five components. -/
theorem k2_pay1_eq (v0 v7 v15 v23 v31 : Vec Ideal S1x40x1x128 .f32) :
    k2_pay1 (F := Ideal) (k2_pay2 (F := Ideal) v0 v7 v15 v23) (k2_pay3 (F := Ideal) v31)
      = finish 0x3EE4F92E#32
          (addf (F := Ideal) (addf (F := Ideal) (addf (F := Ideal) (addf (F := Ideal) (outer v0) (outer v7)) (outer v15))
            (outer v23)) (outer v31)) := rfl

/-- Seven components. -/
theorem k3_pay1_eq (v0 v7 v15 v23 v31 v39 v47 : Vec Ideal S1x40x1x128 .f32) :
    k3_pay1 (F := Ideal) (k3_pay2 (F := Ideal) v0 v7 v15 v23) (k3_pay3 (F := Ideal) v31) v39 v47
      = finish 0x3EC1848F#32
          (addf (F := Ideal) (addf (F := Ideal) (addf (F := Ideal) (addf (F := Ideal) (addf (F := Ideal) (addf (F := Ideal)
            (outer v0) (outer v7)) (outer v15)) (outer v23)) (outer v31)) (outer v39)) (outer v47)) := rfl

/-! ## What each body stores is the specification's block -/

/-- Order 0 (one component, scale 1). -/
theorem block0 (X : Vec Ideal S1x40x1x128 .f32) (r : Fin 40) (q : Fin 16384) :
    k0_pay1 (F := Ideal)
      (View.ld X (Rect.unit (s := S1x40x1x128) ![0, 0, 0, 0] S1x40x1x128.size inb_S1x40x1x128_S1x40x1x128_0_0_0_0))
      (ix3 0 r q) = Cert.Gram.blockGram 1 0x3F800000#32 X r q := by
  refine (congrFun (k0_pay1_eq _) _).trans ?_
  refine (finish_apply _ _ r q).trans ?_
  unfold blockGram
  refine congrArg (Ideal.ofBits .f32 0x3F800000#32 * ·) ?_
  refine Eq.trans ?_ (Fin.sum_univ_one _).symm
  exact outer_ld X 0 (by omega) _ r q

/-- Order 1 (three components). -/
theorem block1 (X : Vec Ideal S1x40x3x128 .f32) (r : Fin 40) (q : Fin 16384) :
    k1_pay1 (F := Ideal)
      (View.ld X (Rect.unit (s := S1x40x3x128) ![0, 0, 0, 0] S1x40x1x128.size inb_S1x40x3x128_S1x40x1x128_0_0_0_0))
      (View.ld X (Rect.unit (s := S1x40x3x128) ![0, 0, 1, 0] S1x40x1x128.size inb_S1x40x3x128_S1x40x1x128_0_0_1_0))
      (View.ld X (Rect.unit (s := S1x40x3x128) ![0, 0, 2, 0] S1x40x1x128.size inb_S1x40x3x128_S1x40x1x128_0_0_2_0))
      (ix3 0 r q) = Cert.Gram.blockGram 3 0x3F13CD3A#32 X r q := by
  refine (congrFun (k1_pay1_eq _ _ _) _).trans ?_
  refine (finish_apply _ _ r q).trans ?_
  unfold blockGram
  refine congrArg (Ideal.ofBits .f32 0x3F13CD3A#32 * ·) ?_
  refine Eq.trans ?_ (Fin.sum_univ_three _).symm
  exact congrArg₂ (· + ·) (congrArg₂ (· + ·)
    (outer_ld X 0 (by omega) _ r q) (outer_ld X 1 (by omega) _ r q)) (outer_ld X 2 (by omega) _ r q)

/-- Order 2 (five components). -/
theorem block2 (X : Vec Ideal S1x40x5x128 .f32) (r : Fin 40) (q : Fin 16384) :
    k2_pay1 (F := Ideal)
      (k2_pay2 (F := Ideal)
        (View.ld X (Rect.unit (s := S1x40x5x128) ![0, 0, 0, 0] S1x40x1x128.size inb_S1x40x5x128_S1x40x1x128_0_0_0_0))
        (View.ld X (Rect.unit (s := S1x40x5x128) ![0, 0, 1, 0] S1x40x1x128.size inb_S1x40x5x128_S1x40x1x128_0_0_1_0))
        (View.ld X (Rect.unit (s := S1x40x5x128) ![0, 0, 2, 0] S1x40x1x128.size inb_S1x40x5x128_S1x40x1x128_0_0_2_0))
        (View.ld X (Rect.unit (s := S1x40x5x128) ![0, 0, 3, 0] S1x40x1x128.size inb_S1x40x5x128_S1x40x1x128_0_0_3_0)))
      (k2_pay3 (F := Ideal)
        (View.ld X (Rect.unit (s := S1x40x5x128) ![0, 0, 4, 0] S1x40x1x128.size inb_S1x40x5x128_S1x40x1x128_0_0_4_0)))
      (ix3 0 r q) = Cert.Gram.blockGram 5 0x3EE4F92E#32 X r q := by
  refine (congrFun (k2_pay1_eq _ _ _ _ _) _).trans ?_
  refine (finish_apply _ _ r q).trans ?_
  unfold blockGram
  refine congrArg (Ideal.ofBits .f32 0x3EE4F92E#32 * ·) ?_
  refine Eq.trans ?_ (Fin.sum_univ_five _).symm
  exact congrArg₂ (· + ·) (congrArg₂ (· + ·) (congrArg₂ (· + ·) (congrArg₂ (· + ·)
    (outer_ld X 0 (by omega) _ r q) (outer_ld X 1 (by omega) _ r q)) (outer_ld X 2 (by omega) _ r q))
    (outer_ld X 3 (by omega) _ r q)) (outer_ld X 4 (by omega) _ r q)

/-- Order 3 (seven components). -/
theorem block3 (X : Vec Ideal S1x40x7x128 .f32) (r : Fin 40) (q : Fin 16384) :
    k3_pay1 (F := Ideal)
      (k3_pay2 (F := Ideal)
        (View.ld X (Rect.unit (s := S1x40x7x128) ![0, 0, 0, 0] S1x40x1x128.size inb_S1x40x7x128_S1x40x1x128_0_0_0_0))
        (View.ld X (Rect.unit (s := S1x40x7x128) ![0, 0, 1, 0] S1x40x1x128.size inb_S1x40x7x128_S1x40x1x128_0_0_1_0))
        (View.ld X (Rect.unit (s := S1x40x7x128) ![0, 0, 2, 0] S1x40x1x128.size inb_S1x40x7x128_S1x40x1x128_0_0_2_0))
        (View.ld X (Rect.unit (s := S1x40x7x128) ![0, 0, 3, 0] S1x40x1x128.size inb_S1x40x7x128_S1x40x1x128_0_0_3_0)))
      (k3_pay3 (F := Ideal)
        (View.ld X (Rect.unit (s := S1x40x7x128) ![0, 0, 4, 0] S1x40x1x128.size inb_S1x40x7x128_S1x40x1x128_0_0_4_0)))
      (View.ld X (Rect.unit (s := S1x40x7x128) ![0, 0, 5, 0] S1x40x1x128.size inb_S1x40x7x128_S1x40x1x128_0_0_5_0))
      (View.ld X (Rect.unit (s := S1x40x7x128) ![0, 0, 6, 0] S1x40x1x128.size inb_S1x40x7x128_S1x40x1x128_0_0_6_0))
      (ix3 0 r q) = Cert.Gram.blockGram 7 0x3EC1848F#32 X r q := by
  refine (congrFun (k3_pay1_eq _ _ _ _ _ _ _) _).trans ?_
  refine (finish_apply _ _ r q).trans ?_
  unfold blockGram
  refine congrArg (Ideal.ofBits .f32 0x3EC1848F#32 * ·) ?_
  refine Eq.trans ?_ (Fin.sum_univ_seven _).symm
  exact congrArg₂ (· + ·) (congrArg₂ (· + ·) (congrArg₂ (· + ·) (congrArg₂ (· + ·) (congrArg₂ (· + ·) (congrArg₂ (· + ·)
    (outer_ld X 0 (by omega) _ r q) (outer_ld X 1 (by omega) _ r q)) (outer_ld X 2 (by omega) _ r q))
    (outer_ld X 3 (by omega) _ r q)) (outer_ld X 4 (by omega) _ r q)) (outer_ld X 5 (by omega) _ r q))
    (outer_ld X 6 (by omega) _ r q)

end Cert.KernelIdeal.Pay

end
-- ==== Proof.KernelIdeal.Final0.lean ====
/-
  What region 0 leaves in its output array: the scaled Gram matrix of every sample (order l = 0, 1 component).

  One grid point `t = (s, b)` works on samples `40·b … 40·b + 39` of species `s`. The body's one store, read at row `r`
  and flat column `q` of the block, is the block's Gram entry (the payload lemma); the input block is the argument array
  read at rows `40·b + r`; so what the point writes back is block `t` of `gram` of the argument array. The 2 × 25 blocks
  tile the array, so the array ends holding `gram` of the argument, whole.
-/
import proofs.«134989_j86088324481926_1_alg».proof.Proof.KernelIdeal.Region0
import proofs.«134989_j86088324481926_1_alg».proof.Proof.BlockPayload
import proofs.«134989_j86088324481926_1_alg».proof.Proof.GramSpec
import Idealize.ShloMosaic.Lib.Pipeline.Value
import Idealize.ShloMosaic.Lib.ValueIdx

set_option maxRecDepth 16384

noncomputable section

namespace Cert.KernelIdeal.Reg

open Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem zeros0 : (![0, 0, 0] : Fin 3 → Nat) = fun _ => 0 := funext fun a => by fin_cases a <;> rfl

/-- The body's one store at row `r`, flat column `q` of the block: the block's Gram entry. -/
theorem stored0_apply (X : Vec Ideal S1x40x1x128 .f32) (r : Fin 40) (q : Fin 16384) :
    stored0 X (ix3 0 r q) = Cert.Gram.blockGram 1 0x3F800000#32 X r q := by
  unfold stored0
  rw [View.canon_unit_zero zeros0]
  exact Cert.KernelIdeal.Pay.block0 X r q

/-- The index maps over the grid: input and output blocks sit at the same species and the same run of 40 samples, and
    start at zero on every other axis. -/
theorem where0 : ∀ t : Fin cfg0.N, win0_0.index t (0 : Fin 4) = win0_1.index t (0 : Fin 3)
    ∧ win0_0.index t (1 : Fin 4) = win0_1.index t (1 : Fin 3)
    ∧ win0_0.index t (2 : Fin 4) = 0 ∧ win0_0.index t (3 : Fin 4) = 0 ∧ win0_1.index t (2 : Fin 3) = 0
    ∧ win0_1.index t (0 : Fin 3) ≤ 1 ∧ win0_1.index t (1 : Fin 3) ≤ 24 :=
  (by decide +kernel : ∀ t : Fin grid0.N, _)

/-- Every (species, run of 40 samples) is some grid point's. -/
theorem onto0 : ∀ (q0 : Fin 2) (q1 : Fin 25), ∃ t : Fin cfg0.N, win0_1.index t = ![q0.val, q1.val, 0] :=
  (by decide +kernel : ∀ (q0 : Fin 2) (q1 : Fin 25), ∃ t : Fin grid0.N, win0_1.index t = ![q0.val, q1.val, 0])

/-- What point `t` writes back is block `t` of the Gram array of the argument as the region finds it. -/
theorem flushed0_eq (c : Dev nD) (t : Fin cfg0.N) :
    (dat0 V c).flushed 1 t = ((cfg0.win 1).blk t).view.read (Elt Ideal) (Cert.Gram.gram 1 0x3F800000#32 (V c main_arg0)) := by
  show (cfg0.win 1).cut (grid0.coords t) ((dat0 V c).after 1 t) = _
  rw [after0_out]
  obtain ⟨e0, e1, e2, e3, e4, e5, e6⟩ := where0 t
  have key : ∀ y : S1x40x16384.Idx, stored0 (blk0 V c 0 t) y
      = Cert.Gram.gram 1 0x3F800000#32 (V c main_arg0) (((cfg0.win 1).blk t).view.emb y) := by
    intro y
    obtain ⟨y0, r, q, rfl⟩ : ∃ (y0 : Fin 1) (r : Fin 40) (q : Fin 16384), y = ix3 y0 r q := ⟨y 0, y 1, y 2, eq_ix3 y⟩
    obtain rfl : y0 = 0 := Subsingleton.elim _ _
    have hs : win0_1.index t (0 : Fin 3) < 2 := by omega
    have hn : win0_1.index t (1 : Fin 3) * 40 + r.val < 1000 := by have := r.isLt; omega
    have hemb : ((cfg0.win 1).blk t).view.emb (ix3 0 r q)
        = ix3 (⟨win0_1.index t (0 : Fin 3), hs⟩ : Fin 2) (⟨win0_1.index t (1 : Fin 3) * 40 + r.val, hn⟩ : Fin 1000) q := by
      funext a; apply Fin.ext
      match a with
      | ⟨0, _⟩ => show win0_1.index t (0 : Fin 3) * 1 + 1 * 0 = win0_1.index t (0 : Fin 3); omega
      | ⟨1, _⟩ => show win0_1.index t (1 : Fin 3) * 40 + 1 * r.val = win0_1.index t (1 : Fin 3) * 40 + r.val; omega
      | ⟨2, _⟩ => show win0_1.index t (2 : Fin 3) * 16384 + 1 * q.val = q.val; omega
    rw [stored0_apply, hemb, Cert.Gram.gram_apply]
    unfold Cert.Gram.blockGram
    have hrow : ∀ (k : Fin 1) (j : Fin 128), blk0 V c 0 t (ix4 0 r k j)
        = (V c main_arg0 : S2x1000x1x128.Idx → Elt Ideal .f32)
            (ix4 (⟨win0_1.index t (0 : Fin 3), hs⟩ : Fin 2) (⟨win0_1.index t (1 : Fin 3) * 40 + r.val, hn⟩ : Fin 1000) k j) := by
      intro k j
      unfold blk0
      rw [View.read_apply]
      show V c main_arg0 _ = V c main_arg0 _
      congr 1
      funext a; apply Fin.ext
      match a with
      | ⟨0, _⟩ => show win0_0.index t (0 : Fin 4) * 1 + 1 * 0 = win0_1.index t (0 : Fin 3); omega
      | ⟨1, _⟩ => show win0_0.index t (1 : Fin 4) * 40 + 1 * r.val = win0_1.index t (1 : Fin 3) * 40 + r.val; omega
      | ⟨2, _⟩ => show win0_0.index t (2 : Fin 4) * 1 + 1 * k.val = k.val; omega
      | ⟨3, _⟩ => show win0_0.index t (3 : Fin 4) * 128 + 1 * j.val = j.val; omega
    congr 1
    refine Finset.sum_congr rfl fun k _ => ?_
    rw [hrow, hrow]
  funext y
  exact key y

/-- The output array after the region: the Gram array of the argument, whole. -/
theorem final0 (c : Dev nD) : (dat0 V c).arrAt 1 cfg0.N = Cert.Gram.gram 1 0x3F800000#32 (V c main_arg0) :=
  (dat0 V c).arrAt_eq_of_cover 1 _ (fun t _ => flushed0_eq V c t) fun i => by
    have h0 : (i 0).val < 2 := (i 0).isLt
    have h1 : (i 1).val < 1000 := (i 1).isLt
    have h2 : (i 2).val < 16384 := (i 2).isLt
    obtain ⟨t, ht⟩ := onto0 ⟨(i 0).val, h0⟩ ⟨(i 1).val / 40, by omega⟩
    have q0 : win0_1.index t (0 : Fin 3) = (i 0).val := congrFun ht 0
    have q1 : win0_1.index t (1 : Fin 3) = (i 1).val / 40 := congrFun ht 1
    have q2 : win0_1.index t (2 : Fin 3) = 0 := congrFun ht 2
    refine ⟨t, flush0_1 t, ?_⟩
    show i ∈ ((View.whole main_v0).slice (win0_1.rect t)).set
    rw [View.set_slice_whole, Rect.mem_set_unit]
    intro a
    match a with
    | ⟨0, _⟩ => show win0_1.index t (0 : Fin 3) * 1 ≤ (i 0).val ∧ (i 0).val < win0_1.index t (0 : Fin 3) * 1 + 1; omega
    | ⟨1, _⟩ => show win0_1.index t (1 : Fin 3) * 40 ≤ (i 1).val ∧ (i 1).val < win0_1.index t (1 : Fin 3) * 40 + 40; omega
    | ⟨2, _⟩ => show win0_1.index t (2 : Fin 3) * 16384 ≤ (i 2).val ∧ (i 2).val < win0_1.index t (2 : Fin 3) * 16384 + 16384; omega

end Cert.KernelIdeal.Reg

end
-- ==== Proof.KernelIdeal.Final1.lean ====
/-
  What region 1 leaves in its output array: the scaled Gram matrix of every sample (order l = 1, 3 components).

  One grid point `t = (s, b)` works on samples `40·b … 40·b + 39` of species `s`. The body's one store, read at row `r`
  and flat column `q` of the block, is the block's Gram entry (the payload lemma); the input block is the argument array
  read at rows `40·b + r`; so what the point writes back is block `t` of `gram` of the argument array. The 2 × 25 blocks
  tile the array, so the array ends holding `gram` of the argument, whole.
-/
import proofs.«134989_j86088324481926_1_alg».proof.Proof.KernelIdeal.Region1
import proofs.«134989_j86088324481926_1_alg».proof.Proof.BlockPayload
import proofs.«134989_j86088324481926_1_alg».proof.Proof.GramSpec
import Idealize.ShloMosaic.Lib.Pipeline.Value
import Idealize.ShloMosaic.Lib.ValueIdx

set_option maxRecDepth 16384

noncomputable section

namespace Cert.KernelIdeal.Reg

open Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem zeros1 : (![0, 0, 0] : Fin 3 → Nat) = fun _ => 0 := funext fun a => by fin_cases a <;> rfl

/-- The body's one store at row `r`, flat column `q` of the block: the block's Gram entry. -/
theorem stored1_apply (X : Vec Ideal S1x40x3x128 .f32) (r : Fin 40) (q : Fin 16384) :
    stored1 X (ix3 0 r q) = Cert.Gram.blockGram 3 0x3F13CD3A#32 X r q := by
  unfold stored1
  rw [View.canon_unit_zero zeros1]
  exact Cert.KernelIdeal.Pay.block1 X r q

/-- The index maps over the grid: input and output blocks sit at the same species and the same run of 40 samples, and
    start at zero on every other axis. -/
theorem where1 : ∀ t : Fin cfg1.N, win1_0.index t (0 : Fin 4) = win1_1.index t (0 : Fin 3)
    ∧ win1_0.index t (1 : Fin 4) = win1_1.index t (1 : Fin 3)
    ∧ win1_0.index t (2 : Fin 4) = 0 ∧ win1_0.index t (3 : Fin 4) = 0 ∧ win1_1.index t (2 : Fin 3) = 0
    ∧ win1_1.index t (0 : Fin 3) ≤ 1 ∧ win1_1.index t (1 : Fin 3) ≤ 24 :=
  (by decide +kernel : ∀ t : Fin grid1.N, _)

/-- Every (species, run of 40 samples) is some grid point's. -/
theorem onto1 : ∀ (q0 : Fin 2) (q1 : Fin 25), ∃ t : Fin cfg1.N, win1_1.index t = ![q0.val, q1.val, 0] :=
  (by decide +kernel : ∀ (q0 : Fin 2) (q1 : Fin 25), ∃ t : Fin grid1.N, win1_1.index t = ![q0.val, q1.val, 0])

/-- What point `t` writes back is block `t` of the Gram array of the argument as the region finds it. -/
theorem flushed1_eq (c : Dev nD) (t : Fin cfg1.N) :
    (dat1 V c).flushed 1 t = ((cfg1.win 1).blk t).view.read (Elt Ideal) (Cert.Gram.gram 3 0x3F13CD3A#32 (V c main_arg1)) := by
  show (cfg1.win 1).cut (grid1.coords t) ((dat1 V c).after 1 t) = _
  rw [after1_out]
  obtain ⟨e0, e1, e2, e3, e4, e5, e6⟩ := where1 t
  have key : ∀ y : S1x40x16384.Idx, stored1 (blk1 V c 0 t) y
      = Cert.Gram.gram 3 0x3F13CD3A#32 (V c main_arg1) (((cfg1.win 1).blk t).view.emb y) := by
    intro y
    obtain ⟨y0, r, q, rfl⟩ : ∃ (y0 : Fin 1) (r : Fin 40) (q : Fin 16384), y = ix3 y0 r q := ⟨y 0, y 1, y 2, eq_ix3 y⟩
    obtain rfl : y0 = 0 := Subsingleton.elim _ _
    have hs : win1_1.index t (0 : Fin 3) < 2 := by omega
    have hn : win1_1.index t (1 : Fin 3) * 40 + r.val < 1000 := by have := r.isLt; omega
    have hemb : ((cfg1.win 1).blk t).view.emb (ix3 0 r q)
        = ix3 (⟨win1_1.index t (0 : Fin 3), hs⟩ : Fin 2) (⟨win1_1.index t (1 : Fin 3) * 40 + r.val, hn⟩ : Fin 1000) q := by
      funext a; apply Fin.ext
      match a with
      | ⟨0, _⟩ => show win1_1.index t (0 : Fin 3) * 1 + 1 * 0 = win1_1.index t (0 : Fin 3); omega
      | ⟨1, _⟩ => show win1_1.index t (1 : Fin 3) * 40 + 1 * r.val = win1_1.index t (1 : Fin 3) * 40 + r.val; omega
      | ⟨2, _⟩ => show win1_1.index t (2 : Fin 3) * 16384 + 1 * q.val = q.val; omega
    rw [stored1_apply, hemb, Cert.Gram.gram_apply]
    unfold Cert.Gram.blockGram
    have hrow : ∀ (k : Fin 3) (j : Fin 128), blk1 V c 0 t (ix4 0 r k j)
        = (V c main_arg1 : S2x1000x3x128.Idx → Elt Ideal .f32)
            (ix4 (⟨win1_1.index t (0 : Fin 3), hs⟩ : Fin 2) (⟨win1_1.index t (1 : Fin 3) * 40 + r.val, hn⟩ : Fin 1000) k j) := by
      intro k j
      unfold blk1
      rw [View.read_apply]
      show V c main_arg1 _ = V c main_arg1 _
      congr 1
      funext a; apply Fin.ext
      match a with
      | ⟨0, _⟩ => show win1_0.index t (0 : Fin 4) * 1 + 1 * 0 = win1_1.index t (0 : Fin 3); omega
      | ⟨1, _⟩ => show win1_0.index t (1 : Fin 4) * 40 + 1 * r.val = win1_1.index t (1 : Fin 3) * 40 + r.val; omega
      | ⟨2, _⟩ => show win1_0.index t (2 : Fin 4) * 3 + 1 * k.val = k.val; omega
      | ⟨3, _⟩ => show win1_0.index t (3 : Fin 4) * 128 + 1 * j.val = j.val; omega
    congr 1
    refine Finset.sum_congr rfl fun k _ => ?_
    rw [hrow, hrow]
  funext y
  exact key y

/-- The output array after the region: the Gram array of the argument, whole. -/
theorem final1 (c : Dev nD) : (dat1 V c).arrAt 1 cfg1.N = Cert.Gram.gram 3 0x3F13CD3A#32 (V c main_arg1) :=
  (dat1 V c).arrAt_eq_of_cover 1 _ (fun t _ => flushed1_eq V c t) fun i => by
    have h0 : (i 0).val < 2 := (i 0).isLt
    have h1 : (i 1).val < 1000 := (i 1).isLt
    have h2 : (i 2).val < 16384 := (i 2).isLt
    obtain ⟨t, ht⟩ := onto1 ⟨(i 0).val, h0⟩ ⟨(i 1).val / 40, by omega⟩
    have q0 : win1_1.index t (0 : Fin 3) = (i 0).val := congrFun ht 0
    have q1 : win1_1.index t (1 : Fin 3) = (i 1).val / 40 := congrFun ht 1
    have q2 : win1_1.index t (2 : Fin 3) = 0 := congrFun ht 2
    refine ⟨t, flush1_1 t, ?_⟩
    show i ∈ ((View.whole main_v1).slice (win1_1.rect t)).set
    rw [View.set_slice_whole, Rect.mem_set_unit]
    intro a
    match a with
    | ⟨0, _⟩ => show win1_1.index t (0 : Fin 3) * 1 ≤ (i 0).val ∧ (i 0).val < win1_1.index t (0 : Fin 3) * 1 + 1; omega
    | ⟨1, _⟩ => show win1_1.index t (1 : Fin 3) * 40 ≤ (i 1).val ∧ (i 1).val < win1_1.index t (1 : Fin 3) * 40 + 40; omega
    | ⟨2, _⟩ => show win1_1.index t (2 : Fin 3) * 16384 ≤ (i 2).val ∧ (i 2).val < win1_1.index t (2 : Fin 3) * 16384 + 16384; omega

end Cert.KernelIdeal.Reg

end
-- ==== Proof.KernelIdeal.Final2.lean ====
/-
  What region 2 leaves in its output array: the scaled Gram matrix of every sample (order l = 2, 5 components).

  One grid point `t = (s, b)` works on samples `40·b … 40·b + 39` of species `s`. The body's one store, read at row `r`
  and flat column `q` of the block, is the block's Gram entry (the payload lemma); the input block is the argument array
  read at rows `40·b + r`; so what the point writes back is block `t` of `gram` of the argument array. The 2 × 25 blocks
  tile the array, so the array ends holding `gram` of the argument, whole.
-/
import proofs.«134989_j86088324481926_1_alg».proof.Proof.KernelIdeal.Region2
import proofs.«134989_j86088324481926_1_alg».proof.Proof.BlockPayload
import proofs.«134989_j86088324481926_1_alg».proof.Proof.GramSpec
import Idealize.ShloMosaic.Lib.Pipeline.Value
import Idealize.ShloMosaic.Lib.ValueIdx

set_option maxRecDepth 16384

noncomputable section

namespace Cert.KernelIdeal.Reg

open Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem zeros2 : (![0, 0, 0] : Fin 3 → Nat) = fun _ => 0 := funext fun a => by fin_cases a <;> rfl

/-- The body's one store at row `r`, flat column `q` of the block: the block's Gram entry. -/
theorem stored2_apply (X : Vec Ideal S1x40x5x128 .f32) (r : Fin 40) (q : Fin 16384) :
    stored2 X (ix3 0 r q) = Cert.Gram.blockGram 5 0x3EE4F92E#32 X r q := by
  unfold stored2
  rw [View.canon_unit_zero zeros2]
  exact Cert.KernelIdeal.Pay.block2 X r q

/-- The index maps over the grid: input and output blocks sit at the same species and the same run of 40 samples, and
    start at zero on every other axis. -/
theorem where2 : ∀ t : Fin cfg2.N, win2_0.index t (0 : Fin 4) = win2_1.index t (0 : Fin 3)
    ∧ win2_0.index t (1 : Fin 4) = win2_1.index t (1 : Fin 3)
    ∧ win2_0.index t (2 : Fin 4) = 0 ∧ win2_0.index t (3 : Fin 4) = 0 ∧ win2_1.index t (2 : Fin 3) = 0
    ∧ win2_1.index t (0 : Fin 3) ≤ 1 ∧ win2_1.index t (1 : Fin 3) ≤ 24 :=
  (by decide +kernel : ∀ t : Fin grid2.N, _)

/-- Every (species, run of 40 samples) is some grid point's. -/
theorem onto2 : ∀ (q0 : Fin 2) (q1 : Fin 25), ∃ t : Fin cfg2.N, win2_1.index t = ![q0.val, q1.val, 0] :=
  (by decide +kernel : ∀ (q0 : Fin 2) (q1 : Fin 25), ∃ t : Fin grid2.N, win2_1.index t = ![q0.val, q1.val, 0])

/-- What point `t` writes back is block `t` of the Gram array of the argument as the region finds it. -/
theorem flushed2_eq (c : Dev nD) (t : Fin cfg2.N) :
    (dat2 V c).flushed 1 t = ((cfg2.win 1).blk t).view.read (Elt Ideal) (Cert.Gram.gram 5 0x3EE4F92E#32 (V c main_arg2)) := by
  show (cfg2.win 1).cut (grid2.coords t) ((dat2 V c).after 1 t) = _
  rw [after2_out]
  obtain ⟨e0, e1, e2, e3, e4, e5, e6⟩ := where2 t
  have key : ∀ y : S1x40x16384.Idx, stored2 (blk2 V c 0 t) y
      = Cert.Gram.gram 5 0x3EE4F92E#32 (V c main_arg2) (((cfg2.win 1).blk t).view.emb y) := by
    intro y
    obtain ⟨y0, r, q, rfl⟩ : ∃ (y0 : Fin 1) (r : Fin 40) (q : Fin 16384), y = ix3 y0 r q := ⟨y 0, y 1, y 2, eq_ix3 y⟩
    obtain rfl : y0 = 0 := Subsingleton.elim _ _
    have hs : win2_1.index t (0 : Fin 3) < 2 := by omega
    have hn : win2_1.index t (1 : Fin 3) * 40 + r.val < 1000 := by have := r.isLt; omega
    have hemb : ((cfg2.win 1).blk t).view.emb (ix3 0 r q)
        = ix3 (⟨win2_1.index t (0 : Fin 3), hs⟩ : Fin 2) (⟨win2_1.index t (1 : Fin 3) * 40 + r.val, hn⟩ : Fin 1000) q := by
      funext a; apply Fin.ext
      match a with
      | ⟨0, _⟩ => show win2_1.index t (0 : Fin 3) * 1 + 1 * 0 = win2_1.index t (0 : Fin 3); omega
      | ⟨1, _⟩ => show win2_1.index t (1 : Fin 3) * 40 + 1 * r.val = win2_1.index t (1 : Fin 3) * 40 + r.val; omega
      | ⟨2, _⟩ => show win2_1.index t (2 : Fin 3) * 16384 + 1 * q.val = q.val; omega
    rw [stored2_apply, hemb, Cert.Gram.gram_apply]
    unfold Cert.Gram.blockGram
    have hrow : ∀ (k : Fin 5) (j : Fin 128), blk2 V c 0 t (ix4 0 r k j)
        = (V c main_arg2 : S2x1000x5x128.Idx → Elt Ideal .f32)
            (ix4 (⟨win2_1.index t (0 : Fin 3), hs⟩ : Fin 2) (⟨win2_1.index t (1 : Fin 3) * 40 + r.val, hn⟩ : Fin 1000) k j) := by
      intro k j
      unfold blk2
      rw [View.read_apply]
      show V c main_arg2 _ = V c main_arg2 _
      congr 1
      funext a; apply Fin.ext
      match a with
      | ⟨0, _⟩ => show win2_0.index t (0 : Fin 4) * 1 + 1 * 0 = win2_1.index t (0 : Fin 3); omega
      | ⟨1, _⟩ => show win2_0.index t (1 : Fin 4) * 40 + 1 * r.val = win2_1.index t (1 : Fin 3) * 40 + r.val; omega
      | ⟨2, _⟩ => show win2_0.index t (2 : Fin 4) * 5 + 1 * k.val = k.val; omega
      | ⟨3, _⟩ => show win2_0.index t (3 : Fin 4) * 128 + 1 * j.val = j.val; omega
    congr 1
    refine Finset.sum_congr rfl fun k _ => ?_
    rw [hrow, hrow]
  funext y
  exact key y

/-- The output array after the region: the Gram array of the argument, whole. -/
theorem final2 (c : Dev nD) : (dat2 V c).arrAt 1 cfg2.N = Cert.Gram.gram 5 0x3EE4F92E#32 (V c main_arg2) :=
  (dat2 V c).arrAt_eq_of_cover 1 _ (fun t _ => flushed2_eq V c t) fun i => by
    have h0 : (i 0).val < 2 := (i 0).isLt
    have h1 : (i 1).val < 1000 := (i 1).isLt
    have h2 : (i 2).val < 16384 := (i 2).isLt
    obtain ⟨t, ht⟩ := onto2 ⟨(i 0).val, h0⟩ ⟨(i 1).val / 40, by omega⟩
    have q0 : win2_1.index t (0 : Fin 3) = (i 0).val := congrFun ht 0
    have q1 : win2_1.index t (1 : Fin 3) = (i 1).val / 40 := congrFun ht 1
    have q2 : win2_1.index t (2 : Fin 3) = 0 := congrFun ht 2
    refine ⟨t, flush2_1 t, ?_⟩
    show i ∈ ((View.whole main_v2).slice (win2_1.rect t)).set
    rw [View.set_slice_whole, Rect.mem_set_unit]
    intro a
    match a with
    | ⟨0, _⟩ => show win2_1.index t (0 : Fin 3) * 1 ≤ (i 0).val ∧ (i 0).val < win2_1.index t (0 : Fin 3) * 1 + 1; omega
    | ⟨1, _⟩ => show win2_1.index t (1 : Fin 3) * 40 ≤ (i 1).val ∧ (i 1).val < win2_1.index t (1 : Fin 3) * 40 + 40; omega
    | ⟨2, _⟩ => show win2_1.index t (2 : Fin 3) * 16384 ≤ (i 2).val ∧ (i 2).val < win2_1.index t (2 : Fin 3) * 16384 + 16384; omega

end Cert.KernelIdeal.Reg

end
-- ==== Proof.KernelIdeal.Final3.lean ====
/-
  What region 3 leaves in its output array: the scaled Gram matrix of every sample (order l = 3, 7 components).

  One grid point `t = (s, b)` works on samples `40·b … 40·b + 39` of species `s`. The body's one store, read at row `r`
  and flat column `q` of the block, is the block's Gram entry (the payload lemma); the input block is the argument array
  read at rows `40·b + r`; so what the point writes back is block `t` of `gram` of the argument array. The 2 × 25 blocks
  tile the array, so the array ends holding `gram` of the argument, whole.
-/
import proofs.«134989_j86088324481926_1_alg».proof.Proof.KernelIdeal.Region3
import proofs.«134989_j86088324481926_1_alg».proof.Proof.BlockPayload
import proofs.«134989_j86088324481926_1_alg».proof.Proof.GramSpec
import Idealize.ShloMosaic.Lib.Pipeline.Value
import Idealize.ShloMosaic.Lib.ValueIdx

set_option maxRecDepth 16384

noncomputable section

namespace Cert.KernelIdeal.Reg

open Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem zeros3 : (![0, 0, 0] : Fin 3 → Nat) = fun _ => 0 := funext fun a => by fin_cases a <;> rfl

/-- The body's one store at row `r`, flat column `q` of the block: the block's Gram entry. -/
theorem stored3_apply (X : Vec Ideal S1x40x7x128 .f32) (r : Fin 40) (q : Fin 16384) :
    stored3 X (ix3 0 r q) = Cert.Gram.blockGram 7 0x3EC1848F#32 X r q := by
  unfold stored3
  rw [View.canon_unit_zero zeros3]
  exact Cert.KernelIdeal.Pay.block3 X r q

/-- The index maps over the grid: input and output blocks sit at the same species and the same run of 40 samples, and
    start at zero on every other axis. -/
theorem where3 : ∀ t : Fin cfg3.N, win3_0.index t (0 : Fin 4) = win3_1.index t (0 : Fin 3)
    ∧ win3_0.index t (1 : Fin 4) = win3_1.index t (1 : Fin 3)
    ∧ win3_0.index t (2 : Fin 4) = 0 ∧ win3_0.index t (3 : Fin 4) = 0 ∧ win3_1.index t (2 : Fin 3) = 0
    ∧ win3_1.index t (0 : Fin 3) ≤ 1 ∧ win3_1.index t (1 : Fin 3) ≤ 24 :=
  (by decide +kernel : ∀ t : Fin grid3.N, _)

/-- Every (species, run of 40 samples) is some grid point's. -/
theorem onto3 : ∀ (q0 : Fin 2) (q1 : Fin 25), ∃ t : Fin cfg3.N, win3_1.index t = ![q0.val, q1.val, 0] :=
  (by decide +kernel : ∀ (q0 : Fin 2) (q1 : Fin 25), ∃ t : Fin grid3.N, win3_1.index t = ![q0.val, q1.val, 0])

/-- What point `t` writes back is block `t` of the Gram array of the argument as the region finds it. -/
theorem flushed3_eq (c : Dev nD) (t : Fin cfg3.N) :
    (dat3 V c).flushed 1 t = ((cfg3.win 1).blk t).view.read (Elt Ideal) (Cert.Gram.gram 7 0x3EC1848F#32 (V c main_arg3)) := by
  show (cfg3.win 1).cut (grid3.coords t) ((dat3 V c).after 1 t) = _
  rw [after3_out]
  obtain ⟨e0, e1, e2, e3, e4, e5, e6⟩ := where3 t
  have key : ∀ y : S1x40x16384.Idx, stored3 (blk3 V c 0 t) y
      = Cert.Gram.gram 7 0x3EC1848F#32 (V c main_arg3) (((cfg3.win 1).blk t).view.emb y) := by
    intro y
    obtain ⟨y0, r, q, rfl⟩ : ∃ (y0 : Fin 1) (r : Fin 40) (q : Fin 16384), y = ix3 y0 r q := ⟨y 0, y 1, y 2, eq_ix3 y⟩
    obtain rfl : y0 = 0 := Subsingleton.elim _ _
    have hs : win3_1.index t (0 : Fin 3) < 2 := by omega
    have hn : win3_1.index t (1 : Fin 3) * 40 + r.val < 1000 := by have := r.isLt; omega
    have hemb : ((cfg3.win 1).blk t).view.emb (ix3 0 r q)
        = ix3 (⟨win3_1.index t (0 : Fin 3), hs⟩ : Fin 2) (⟨win3_1.index t (1 : Fin 3) * 40 + r.val, hn⟩ : Fin 1000) q := by
      funext a; apply Fin.ext
      match a with
      | ⟨0, _⟩ => show win3_1.index t (0 : Fin 3) * 1 + 1 * 0 = win3_1.index t (0 : Fin 3); omega
      | ⟨1, _⟩ => show win3_1.index t (1 : Fin 3) * 40 + 1 * r.val = win3_1.index t (1 : Fin 3) * 40 + r.val; omega
      | ⟨2, _⟩ => show win3_1.index t (2 : Fin 3) * 16384 + 1 * q.val = q.val; omega
    rw [stored3_apply, hemb, Cert.Gram.gram_apply]
    unfold Cert.Gram.blockGram
    have hrow : ∀ (k : Fin 7) (j : Fin 128), blk3 V c 0 t (ix4 0 r k j)
        = (V c main_arg3 : S2x1000x7x128.Idx → Elt Ideal .f32)
            (ix4 (⟨win3_1.index t (0 : Fin 3), hs⟩ : Fin 2) (⟨win3_1.index t (1 : Fin 3) * 40 + r.val, hn⟩ : Fin 1000) k j) := by
      intro k j
      unfold blk3
      rw [View.read_apply]
      show V c main_arg3 _ = V c main_arg3 _
      congr 1
      funext a; apply Fin.ext
      match a with
      | ⟨0, _⟩ => show win3_0.index t (0 : Fin 4) * 1 + 1 * 0 = win3_1.index t (0 : Fin 3); omega
      | ⟨1, _⟩ => show win3_0.index t (1 : Fin 4) * 40 + 1 * r.val = win3_1.index t (1 : Fin 3) * 40 + r.val; omega
      | ⟨2, _⟩ => show win3_0.index t (2 : Fin 4) * 7 + 1 * k.val = k.val; omega
      | ⟨3, _⟩ => show win3_0.index t (3 : Fin 4) * 128 + 1 * j.val = j.val; omega
    congr 1
    refine Finset.sum_congr rfl fun k _ => ?_
    rw [hrow, hrow]
  funext y
  exact key y

/-- The output array after the region: the Gram array of the argument, whole. -/
theorem final3 (c : Dev nD) : (dat3 V c).arrAt 1 cfg3.N = Cert.Gram.gram 7 0x3EC1848F#32 (V c main_arg3) :=
  (dat3 V c).arrAt_eq_of_cover 1 _ (fun t _ => flushed3_eq V c t) fun i => by
    have h0 : (i 0).val < 2 := (i 0).isLt
    have h1 : (i 1).val < 1000 := (i 1).isLt
    have h2 : (i 2).val < 16384 := (i 2).isLt
    obtain ⟨t, ht⟩ := onto3 ⟨(i 0).val, h0⟩ ⟨(i 1).val / 40, by omega⟩
    have q0 : win3_1.index t (0 : Fin 3) = (i 0).val := congrFun ht 0
    have q1 : win3_1.index t (1 : Fin 3) = (i 1).val / 40 := congrFun ht 1
    have q2 : win3_1.index t (2 : Fin 3) = 0 := congrFun ht 2
    refine ⟨t, flush3_1 t, ?_⟩
    show i ∈ ((View.whole main_v3).slice (win3_1.rect t)).set
    rw [View.set_slice_whole, Rect.mem_set_unit]
    intro a
    match a with
    | ⟨0, _⟩ => show win3_1.index t (0 : Fin 3) * 1 ≤ (i 0).val ∧ (i 0).val < win3_1.index t (0 : Fin 3) * 1 + 1; omega
    | ⟨1, _⟩ => show win3_1.index t (1 : Fin 3) * 40 ≤ (i 1).val ∧ (i 1).val < win3_1.index t (1 : Fin 3) * 40 + 40; omega
    | ⟨2, _⟩ => show win3_1.index t (2 : Fin 3) * 16384 ≤ (i 2).val ∧ (i 2).val < win3_1.index t (2 : Fin 3) * 16384 + 16384; omega

end Cert.KernelIdeal.Reg

end
-- ==== Proof.KernelValue.lean ====
/-
  The value of the idealized kernel program: from any memory, the result array ends at the concatenation, along the last
  axis, of the four orders' scaled Gram arrays of the argument arrays, and the arguments end as launched.

  Read off the run's one post (every unscoped buffer at the last boundary's contents): the result's buffer holds the
  concatenation of the four regions' output arrays; each of those is the Gram array of that region's input as entered;
  and each region is entered with its input as launched, since no earlier item writes it.
-/
import proofs.«134989_j86088324481926_1_alg».proof.Proof.KernelIdeal.Run
import proofs.«134989_j86088324481926_1_alg».proof.Proof.KernelIdeal.Final0
import proofs.«134989_j86088324481926_1_alg».proof.Proof.KernelIdeal.Final1
import proofs.«134989_j86088324481926_1_alg».proof.Proof.KernelIdeal.Final2
import proofs.«134989_j86088324481926_1_alg».proof.Proof.KernelIdeal.Final3

set_option maxRecDepth 16384

noncomputable section

namespace Cert.KernelIdeal.Reg

open Cert.KernelIdeal.Gen
open Idealize.ShloMosaic Idealize.ShloMosaic.TcCoe
open Idealize.SL Idealize.SL.Sem

/-- The program's result as one function of its four arguments: the four orders' Gram arrays side by side. -/
def spectrum (x0 : S2x1000x1x128.Idx → EReal) (x1 : S2x1000x3x128.Idx → EReal) (x2 : S2x1000x5x128.Idx → EReal)
    (x3 : S2x1000x7x128.Idx → EReal) : S2x1000x65536.Idx → EReal :=
  concatenate S2x1000x65536 2 [⟨S2x1000x16384, Cert.Gram.gram 1 0x3F800000#32 x0⟩, ⟨S2x1000x16384, Cert.Gram.gram 3 0x3F13CD3A#32 x1⟩,
      ⟨S2x1000x16384, Cert.Gram.gram 5 0x3EE4F92E#32 x2⟩, ⟨S2x1000x16384, Cert.Gram.gram 7 0x3EC1848F#32 x3⟩]
    concatenates_S2x1000x16384_S2x1000x16384_S2x1000x16384_S2x1000x16384_S2x1000x65536_d2

variable (m : (ℓ : Loc nD τ sig) → Buf (Elt Ideal) ℓ)

/-- The last boundary's contents of the result's buffer, in terms of the launch memory. -/
theorem B5_spectrum (c : Dev nD) : B5 m c (Proc.devRef .tc main_v4)
    = spectrum (m ((c : Thread nD τ).loc main_arg0)) (m ((c : Thread nD τ).loc main_arg1))
        (m ((c : Thread nD τ).loc main_arg2)) (m ((c : Thread nD τ).loc main_arg3)) := by
  rw [B5_result, final0, final1, final2, final3, E0_main_arg0, E1_main_arg1, E2_main_arg2, E3_main_arg3]
  rfl

/-- The run, read: the result at `spectrum` of the arguments, the arguments unchanged. -/
theorem value_run (ρ : Dev nD → PrngReg) :
    θ_run defs (onTc (τ := τ) (main (F := Ideal))) ⟨m, fun _ => 0, ρ⟩ (fun r => ∀ c : Dev nD,
      r.2.mem ((c.tc : Thread nD τ).loc main_v4) = spectrum (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v4 (by decide))).trans (B5_spectrum m c),
     (h c _ (mem_uc main_arg0 (by decide))).trans (B5_main_arg0 m c),
     (h c _ (mem_uc main_arg1 (by decide))).trans (B5_main_arg1 m c),
     (h c _ (mem_uc main_arg2 (by decide))).trans (B5_main_arg2 m c),
     (h c _ (mem_uc main_arg3 (by decide))).trans (B5_main_arg3 m c)⟩)
    (run_all m ρ)

end Cert.KernelIdeal.Reg

end
-- ==== Proof.RefStages.lean ====
/-
  The reference's four flattened stages are the specification's scaled Gram matrix.

  For one angular order the reference contracts the coefficient array with itself over the component axis,
  `d (s, n, i, j) = Σ_k x (s, n, k, i) · x (s, n, k, j)`, multiplies every entry by the scale `w`, and reshapes
  `[2, 1000, 128, 128]` to `[2, 1000, 16384]`. A reshape keeps the row-major position: the entry at `(s, n, q)` of
  the result is the entry at flat position `p = (s · 1000 + n) · 16384 + q` of the operand, whose coordinates are
  `p / 16384000 = s`, `p / 16384 % 1000 = n`, `p / 128 % 128 = q / 128` and `p % 128 = q % 128`. So the stage at
  `(s, n, q)` is `w · Σ_k x (s, n, k, q / 128) · x (s, n, k, q % 128)`, which is `Cert.Gram.gram`.
-/
import proofs.«134989_j86088324481926_1_alg».proof.Proof.Gen.ReferenceIdeal.Read
import proofs.«134989_j86088324481926_1_alg».proof.Proof.GramSpec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-! ## The coordinates of a flat position

With `s < 2`, `n < 1000`, `q < 16384` the row-major position `(s · 1000 + n) · 16384 + q` of `[2, 1000, 16384]`
has these four coordinates in `[2, 1000, 128, 128]`. -/

theorem flat_c0 (s n q : ℕ) (hs : s < 2) (hn : n < 1000) (hq : q < 16384) :
    ((s * 1000 + n) * 16384 + q) / 16384000 = s := by omega

theorem flat_c1 (s n q : ℕ) (hs : s < 2) (hn : n < 1000) (hq : q < 16384) :
    ((s * 1000 + n) * 16384 + q) / 16384 % 1000 = n := by omega

theorem flat_c2 (s n q : ℕ) (hs : s < 2) (hn : n < 1000) (hq : q < 16384) :
    ((s * 1000 + n) * 16384 + q) / 128 % 128 = q / 128 := by omega

theorem flat_c3 (s n q : ℕ) (hs : s < 2) (hn : n < 1000) (hq : q < 16384) :
    ((s * 1000 + n) * 16384 + q) % 128 = q % 128 := by omega

/-- Order with 1 component: the left factor of the contraction behind flat column `q` is `x (s, n, k, q / 128)`. -/
theorem lidx_stage0 (s : Fin 2) (n : Fin 1000) (q : Fin 16384) (k : Fin 1) :
    lidx_main_v0 (idx_main_v3 (ix3 s n q)) k = ix4 s n k (Cert.Gram.hi q) :=
  funext fun a => Fin.ext (by
    match a with
    | ⟨0, _⟩ => exact flat_c0 _ _ _ s.isLt n.isLt q.isLt
    | ⟨1, _⟩ => exact flat_c1 _ _ _ s.isLt n.isLt q.isLt
    | ⟨2, _⟩ => rfl
    | ⟨3, _⟩ => exact flat_c2 _ _ _ s.isLt n.isLt q.isLt)

/-- … and the right factor is `x (s, n, k, q % 128)`. -/
theorem ridx_stage0 (s : Fin 2) (n : Fin 1000) (q : Fin 16384) (k : Fin 1) :
    ridx_main_v0 (idx_main_v3 (ix3 s n q)) k = ix4 s n k (Cert.Gram.lo q) :=
  funext fun a => Fin.ext (by
    match a with
    | ⟨0, _⟩ => exact flat_c0 _ _ _ s.isLt n.isLt q.isLt
    | ⟨1, _⟩ => exact flat_c1 _ _ _ s.isLt n.isLt q.isLt
    | ⟨2, _⟩ => rfl
    | ⟨3, _⟩ => exact flat_c3 _ _ _ s.isLt n.isLt q.isLt)

theorem stage0_eq (x : FVec Ideal S2x1000x1x128 .f32) :
    val_main_v3 (F := Ideal) x = Cert.Gram.gram 1 0x3F800000#32 x := by
  funext i
  obtain ⟨s, n, q, rfl⟩ : ∃ (s : Fin 2) (n : Fin 1000) (q : Fin 16384), i = ix3 s n q := ⟨i 0, i 1, i 2, eq_ix3 i⟩
  rw [val_main_v3_apply, val_main_v2_apply, val_main_v1_apply, val_main_cst_apply, val_main_v0_apply,
    Cert.Gram.gram_apply]
  simp only [lidx_stage0, ridx_stage0, Ideal.mulf_def, Ideal.ofBits_def]

/-- Order with 3 components: the left factor of the contraction behind flat column `q` is `x (s, n, k, q / 128)`. -/
theorem lidx_stage1 (s : Fin 2) (n : Fin 1000) (q : Fin 16384) (k : Fin 3) :
    lidx_main_v4 (idx_main_v7 (ix3 s n q)) k = ix4 s n k (Cert.Gram.hi q) :=
  funext fun a => Fin.ext (by
    match a with
    | ⟨0, _⟩ => exact flat_c0 _ _ _ s.isLt n.isLt q.isLt
    | ⟨1, _⟩ => exact flat_c1 _ _ _ s.isLt n.isLt q.isLt
    | ⟨2, _⟩ => rfl
    | ⟨3, _⟩ => exact flat_c2 _ _ _ s.isLt n.isLt q.isLt)

/-- … and the right factor is `x (s, n, k, q % 128)`. -/
theorem ridx_stage1 (s : Fin 2) (n : Fin 1000) (q : Fin 16384) (k : Fin 3) :
    ridx_main_v4 (idx_main_v7 (ix3 s n q)) k = ix4 s n k (Cert.Gram.lo q) :=
  funext fun a => Fin.ext (by
    match a with
    | ⟨0, _⟩ => exact flat_c0 _ _ _ s.isLt n.isLt q.isLt
    | ⟨1, _⟩ => exact flat_c1 _ _ _ s.isLt n.isLt q.isLt
    | ⟨2, _⟩ => rfl
    | ⟨3, _⟩ => exact flat_c3 _ _ _ s.isLt n.isLt q.isLt)

theorem stage1_eq (x : FVec Ideal S2x1000x3x128 .f32) :
    val_main_v7 (F := Ideal) x = Cert.Gram.gram 3 0x3F13CD3A#32 x := by
  funext i
  obtain ⟨s, n, q, rfl⟩ : ∃ (s : Fin 2) (n : Fin 1000) (q : Fin 16384), i = ix3 s n q := ⟨i 0, i 1, i 2, eq_ix3 i⟩
  rw [val_main_v7_apply, val_main_v6_apply, val_main_v5_apply, val_main_cst_0_apply, val_main_v4_apply,
    Cert.Gram.gram_apply]
  simp only [lidx_stage1, ridx_stage1, Ideal.mulf_def, Ideal.ofBits_def]

/-- Order with 5 components: the left factor of the contraction behind flat column `q` is `x (s, n, k, q / 128)`. -/
theorem lidx_stage2 (s : Fin 2) (n : Fin 1000) (q : Fin 16384) (k : Fin 5) :
    lidx_main_v8 (idx_main_v11 (ix3 s n q)) k = ix4 s n k (Cert.Gram.hi q) :=
  funext fun a => Fin.ext (by
    match a with
    | ⟨0, _⟩ => exact flat_c0 _ _ _ s.isLt n.isLt q.isLt
    | ⟨1, _⟩ => exact flat_c1 _ _ _ s.isLt n.isLt q.isLt
    | ⟨2, _⟩ => rfl
    | ⟨3, _⟩ => exact flat_c2 _ _ _ s.isLt n.isLt q.isLt)

/-- … and the right factor is `x (s, n, k, q % 128)`. -/
theorem ridx_stage2 (s : Fin 2) (n : Fin 1000) (q : Fin 16384) (k : Fin 5) :
    ridx_main_v8 (idx_main_v11 (ix3 s n q)) k = ix4 s n k (Cert.Gram.lo q) :=
  funext fun a => Fin.ext (by
    match a with
    | ⟨0, _⟩ => exact flat_c0 _ _ _ s.isLt n.isLt q.isLt
    | ⟨1, _⟩ => exact flat_c1 _ _ _ s.isLt n.isLt q.isLt
    | ⟨2, _⟩ => rfl
    | ⟨3, _⟩ => exact flat_c3 _ _ _ s.isLt n.isLt q.isLt)

theorem stage2_eq (x : FVec Ideal S2x1000x5x128 .f32) :
    val_main_v11 (F := Ideal) x = Cert.Gram.gram 5 0x3EE4F92E#32 x := by
  funext i
  obtain ⟨s, n, q, rfl⟩ : ∃ (s : Fin 2) (n : Fin 1000) (q : Fin 16384), i = ix3 s n q := ⟨i 0, i 1, i 2, eq_ix3 i⟩
  rw [val_main_v11_apply, val_main_v10_apply, val_main_v9_apply, val_main_cst_1_apply, val_main_v8_apply,
    Cert.Gram.gram_apply]
  simp only [lidx_stage2, ridx_stage2, Ideal.mulf_def, Ideal.ofBits_def]

/-- Order with 7 components: the left factor of the contraction behind flat column `q` is `x (s, n, k, q / 128)`. -/
theorem lidx_stage3 (s : Fin 2) (n : Fin 1000) (q : Fin 16384) (k : Fin 7) :
    lidx_main_v12 (idx_main_v15 (ix3 s n q)) k = ix4 s n k (Cert.Gram.hi q) :=
  funext fun a => Fin.ext (by
    match a with
    | ⟨0, _⟩ => exact flat_c0 _ _ _ s.isLt n.isLt q.isLt
    | ⟨1, _⟩ => exact flat_c1 _ _ _ s.isLt n.isLt q.isLt
    | ⟨2, _⟩ => rfl
    | ⟨3, _⟩ => exact flat_c2 _ _ _ s.isLt n.isLt q.isLt)

/-- … and the right factor is `x (s, n, k, q % 128)`. -/
theorem ridx_stage3 (s : Fin 2) (n : Fin 1000) (q : Fin 16384) (k : Fin 7) :
    ridx_main_v12 (idx_main_v15 (ix3 s n q)) k = ix4 s n k (Cert.Gram.lo q) :=
  funext fun a => Fin.ext (by
    match a with
    | ⟨0, _⟩ => exact flat_c0 _ _ _ s.isLt n.isLt q.isLt
    | ⟨1, _⟩ => exact flat_c1 _ _ _ s.isLt n.isLt q.isLt
    | ⟨2, _⟩ => rfl
    | ⟨3, _⟩ => exact flat_c3 _ _ _ s.isLt n.isLt q.isLt)

theorem stage3_eq (x : FVec Ideal S2x1000x7x128 .f32) :
    val_main_v15 (F := Ideal) x = Cert.Gram.gram 7 0x3EC1848F#32 x := by
  funext i
  obtain ⟨s, n, q, rfl⟩ : ∃ (s : Fin 2) (n : Fin 1000) (q : Fin 16384), i = ix3 s n q := ⟨i 0, i 1, i 2, eq_ix3 i⟩
  rw [val_main_v15_apply, val_main_v14_apply, val_main_v13_apply, val_main_cst_2_apply, val_main_v12_apply,
    Cert.Gram.gram_apply]
  simp only [lidx_stage3, ridx_stage3, Ideal.mulf_def, Ideal.ofBits_def]

end Cert.ReferenceIdeal.RefValue

end
-- ==== Proof.lean ====
/-
  The certificate: a power spectrum computed by four kernel launches against its one-line reference.

  For each angular order l = 0 … 3 (M = 2l + 1 = 1, 3, 5, 7 components) and each sample (s, n), both programs compute the
  scaled Gram matrix of the sample's M × 128 coefficient matrix over its component axis,
      g_l (i, j) = w_l · Σ_k c_l (s, n, k, i) · c_l (s, n, k, j),        w_l = (2l + 1)^(-1/2) as a float literal,
  flatten it to a row of 16384 (entry (i, j) at column i · 128 + j), and concatenate the four orders' rows.

  The kernel program runs one pipelined launch per order — 2 × 25 grid points, 40 samples each; the body sums the rows'
  outer products left to right, scales on the right, and stores the block whole — and concatenates on the host. The
  reference contracts the component axis with one batched product per order, scales on the left, reshapes and
  concatenates. At the ideal values the two are one function of the arguments: the contraction is the finite sum over k,
  the kernel's left-nested sum is that sum regrouped, and the scale commutes; the scale's word is the same in both
  programs and is never evaluated, and no step needs the inputs to be finite.

  Frames: each kernel program's run (every weakly fair execution ends, nothing faults) leaves every unscoped buffer at
  contents folded from the launch memory, and no item writes an argument; the reference's frame is its run with the
  result dropped. The idealization rewrote nothing, so `preserves` has no conjunct to prove.
-/
import proofs.«134989_j86088324481926_1_alg».proof.Defs
import proofs.«134989_j86088324481926_1_alg».proof.Proof.Gen.Kernel
import proofs.«134989_j86088324481926_1_alg».proof.Proof.Gen.KernelIdeal
import proofs.«134989_j86088324481926_1_alg».proof.Proof.Gen.ReferenceIdeal
import proofs.«134989_j86088324481926_1_alg».proof.Proof.Gen.Pre_finite_inputs
import proofs.«134989_j86088324481926_1_alg».proof.Proof.Gen.ReferenceIdeal.Run
import proofs.«134989_j86088324481926_1_alg».proof.Proof.Gen.ReferenceIdeal.Read
import proofs.«134989_j86088324481926_1_alg».proof.Proof.Kernel.Run
import proofs.«134989_j86088324481926_1_alg».proof.Proof.KernelValue
import proofs.«134989_j86088324481926_1_alg».proof.Proof.RefStages

noncomputable section

namespace Cert.Proof

open Idealize.ShloMosaic Idealize.ShloMosaic.TcCoe Idealize.SL.Sem

/-- The word-level kernel program runs and leaves its arguments as launched. -/
theorem frame_kernel : Cert.frame_Kernel := fun m ρ _ =>
  (θ_run Cert.Kernel.defs _ _).mono (fun r h c =>
    ⟨(h c _ (Cert.Kernel.Reg.mem_uc Cert.Kernel.main_arg0 (by decide))).trans (Cert.Kernel.Reg.B5_main_arg0 m c),
     (h c _ (Cert.Kernel.Reg.mem_uc Cert.Kernel.main_arg1 (by decide))).trans (Cert.Kernel.Reg.B5_main_arg1 m c),
     (h c _ (Cert.Kernel.Reg.mem_uc Cert.Kernel.main_arg2 (by decide))).trans (Cert.Kernel.Reg.B5_main_arg2 m c),
     (h c _ (Cert.Kernel.Reg.mem_uc Cert.Kernel.main_arg3 (by decide))).trans (Cert.Kernel.Reg.B5_main_arg3 m c)⟩)
    (Cert.Kernel.Reg.run_all (F := Bits) m ρ)

/-- The idealized kernel program runs and leaves its arguments as launched: its value run with the result dropped. -/
theorem frame_ideal : Cert.frame_KernelIdeal := fun m ρ _ =>
  (θ_run Cert.KernelIdeal.defs _ _).mono (fun _ h c => (h c).2) (Cert.KernelIdeal.Reg.value_run m ρ)

/-- The reference runs and leaves its arguments as launched: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values the kernel program's result and the reference's are the same function of arguments that agree:
    the four orders' Gram arrays side by side. -/
theorem algebraic : Cert.algebraic_KernelIdeal_ReferenceIdeal := by
  intro m ρ m' ρ' _ hagree
  refine ⟨fun c => Cert.KernelIdeal.Reg.spectrum (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Reg.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq]
  unfold Cert.ReferenceIdeal.Read.val_main_v16
  rw [Cert.ReferenceIdeal.RefValue.stage0_eq, Cert.ReferenceIdeal.RefValue.stage1_eq, Cert.ReferenceIdeal.RefValue.stage2_eq,
    Cert.ReferenceIdeal.RefValue.stage3_eq, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
